-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  main_v88

def fn_part4 {F : FTy → Type} [FloatOps F] (main_arg14 : FVec F S1024 .f32) (main_arg15 : FVec F S1024 .f32) (main_arg16 : FVec F S1024 .f32) (main_arg17 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S1x1024 : Shape := ⟨2, ![1, 1024]⟩
abbrev S512x1024 : Shape := ⟨2, ![512, 1024]⟩
abbrev S512x4096 : Shape := ⟨2, ![512, 4096]⟩

abbrev nBuf : Space → Nat
  | .hbm => 29
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024x4096, .f32⟩
  | .hbm, ⟨19, _⟩ => ⟨S1024x4096, .bf16⟩
  | .hbm, ⟨20, _⟩ => ⟨S1024x4096, .f32⟩
  | .hbm, ⟨21, _⟩ => ⟨S1024x4096, .bf16⟩
  | .hbm, ⟨22, _⟩ => ⟨S4096, .f32⟩
  | .hbm, ⟨23, _⟩ => ⟨S1x4096, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .f32 = 32 ∨ (Rect.block (s := S8192x1024) S512x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S8192x1024.size a
  hwx0_10 : ∀ i : grid0.Coords, EltTy.bits .f32 = 32 ∨ (Rect.block (s := S8192x1024) S512x1024.size (cc0_transform_10 i) (hinb0_10 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S1x1024 : Shape := ⟨2, ![1, 1024]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024x4096, .f32⟩
  | .hbm, ⟨19, _⟩ => ⟨S1024x4096, .f32⟩
  | .hbm, ⟨20, _⟩ => ⟨S4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_1 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.FrmBaseK.lean ====
/-
  The one-region program up to its region, at any float instance.

  @main is nine host operations (three joins of four arrays along an axis, two narrowings to bf16, four
  reshapes) followed by the one pipelined region over sixteen grid points. This module names what a core's
  buffers hold when the region is entered — the launch contents after the nine operations — shows that @main
  is that host stretch followed by the region, and names each window's block at a grid point as read off the
  window's array at region entry.
-/
import proofs.«153274_j14920716386505_1_alg».proof.Proof.Gen.Kernel.Launch
import proofs.«153274_j14920716386505_1_alg».proof.Proof.Gen.Kernel.Skeleton
import proofs.«153274_j14920716386505_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- Core `c`'s buffers when the region is entered: the launch contents after the nine host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Frm

end
-- ==== Proof.FrmCasesK.lean ====
/-
  Two families of facts about the one-region program, one instance per index.
  (1) None of the nine host operations before the region writes argument array k (k = 0 … 17): the region
      finds it as launched.
  (2) Input window w (w = 0 … 8) holds its own block in its current staging buffer at every grid point,
      whether the pipeline fetched it there or not: a window that is not fetched has not moved.
-/
import proofs.«153274_j14920716386505_1_alg».proof.Proof.FrmBaseK

set_option maxRecDepth 16384

noncomputable section

namespace Cert.Kernel.Frm

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Input window 0's current staging buffer holds its block at every point. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.Kernel.Frm

end
-- ==== Proof.FrmK.lean ====
/-
  The frame of the one-region program, at any float instance.

  Windows 0 to 2 (the three activation arrays) move with the grid point, block t being rows 512·t to
  512·t + 511; windows 3 to 8 (fused weights twice, the bias row, three peephole rows) have a constant block
  index and are fetched once; windows 9 and 10 are the two results, written back at every point. The body
  reads its nine input blocks whole, computes, and overwrites both output blocks whole (it also loads each
  output block first and drops the value), so after the body an output's buffer holds one covering piece:
  the stored value as a function of the nine input blocks. With that as proof data — inputs left in place,
  outputs at that piece, nothing kept between points — the pipeline's run theorem gives termination
  without fault and a postcondition naming every window's array and every other buffer; the argument arrays
  come out as launched.
-/
import proofs.«153274_j14920716386505_1_alg».proof.Proof.FrmCasesK

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the run's -/

/-- For any proof data over the arrays `V`, a run to the pipeline's frame post leaves every argument array as
    launched: a staged argument (windows 0 to 2) by the post's clause on the windows' arrays, which for an input
    window is its entry contents; every other argument by the clause on the remaining buffers. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## The body's accesses: every load and store is of a whole buffer -/

abbrev rA : Rect S512x1024 := Rect.unit (s := S512x1024) ![0, 0] S512x1024.size inb_S512x1024_S512x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0
abbrev rV : Rect S1x1024 := Rect.unit (s := S1x1024) ![0, 0] S1x1024.size inb_S1x1024_S1x1024_0_0

/-! ## What the body leaves in each output window's buffer -/

/-- The first result's buffer after the body: one piece, the new hidden state's block, from the nine input blocks. -/
def outH (x0 x1 x2 : Vec F S512x1024 .f32) (x3 x4 : Vec F S1024x4096 .bf16) (x5 : Vec F S1x4096 .f32) (x6 x7 x8 : Vec F S1x1024 .f32) : Vec F S512x1024 .f32 :=
  View.canon [⟨rA, k0_pay1 (k0_pay3 (View.ld x0 rA) (View.ld x1 rA) (View.ld x3 rW) (View.ld x4 rW) (View.ld x5 rB))
    (k0_pay4 (View.ld x0 rA) (View.ld x1 rA) (View.ld x2 rA) (View.ld x3 rW) (View.ld x4 rW) (View.ld x5 rB) (View.ld x6 rV) (View.ld x7 rV))
    (k0_pay5 (View.ld x8 rV))⟩]

/-- The second result's buffer after the body: one piece, the new cell state's block. -/
def outC (x0 x1 x2 : Vec F S512x1024 .f32) (x3 x4 : Vec F S1024x4096 .bf16) (x5 : Vec F S1x4096 .f32) (x6 x7 : Vec F S1x1024 .f32) : Vec F S512x1024 .f32 :=
  View.canon [⟨rA, k0_pay4 (View.ld x0 rA) (View.ld x1 rA) (View.ld x2 rA) (View.ld x3 rW) (View.ld x4 rW) (View.ld x5 rB) (View.ld x6 rV) (View.ld x7 rV)⟩]

/-- One whole-buffer store covers the buffer. -/
theorem cover_out (p0 : Vec F S512x1024 .f32) (y : S512x1024.Idx) :
    ∃ pc ∈ ([⟨rA, p0⟩] : List (View.Piece (Elt F) S512x1024 .f32)), y ∈ pc.1.set :=
  View.cover_of_tiled [⟨rA, p0⟩] S512x1024.size (by rfl) y

/-! ## The body's triple -/

set_option maxHeartbeats 4000000 in
/-- The kernel body on whole staging memrefs — the nine inputs' at read contents `x0 … x8`, the two outputs' at
    anything — runs to the continuation holding the inputs' as they were and the outputs' at `outH` and `outC`
    of the inputs'. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S512x1024 .f32) (harg10 : arg10.IsWhole)
    (arg11 : Memref sig .tc .vmem S512x1024 .f32) (harg11 : arg11.IsWhole)
    (x0 x1 x2 : Vec F S512x1024 .f32) (x3 x4 : Vec F S1024x4096 .bf16) (x5 : Vec F S1x4096 .f32) (x6 x7 x8 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (outH x0 x1 x2 x3 x4 x5 x6 x7 x8)
            ∗ owns (c : Thread nD τ) arg11 fullShare (outC x0 x1 x2 x3 x4 x5 x6 x7)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_out _)
  iexists _; isplitr
  swap; · iexact H10
  ipureintro
  exact View.read_writes_eq_canon _ _ _ (cover_out _)

/-! ## The pipeline's proof data -/

/-- The proof data of the one pipeline on core `c`: the arrays as the region finds them; after the body at
    point `t` each input's buffer at its block and each output's at its piece over the input blocks; nothing
    kept between points beyond the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outH (iblk m c 0 t) (iblk m c 1 t) (iblk m c 2 t) (iblk m c 3 t) (iblk m c 4 t) (iblk m c 5 t) (iblk m c 6 t) (iblk m c 7 t) (iblk m c 8 t)
    | ⟨10, _⟩ => outC (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t
    = outH (iblk m c 0 t) (iblk m c 1 t) (iblk m c 2 t) (iblk m c 3 t) (iblk m c 4 t) (iblk m c 5 t) (iblk m c 6 t) (iblk m c 7 t) (iblk m c 8 t) := by dsimp only [dats]
theorem after_10 (c : Dev nD) (t : Fin cfg0.N) : (dats m 0 c).after 10 t
    = outC (iblk m c 0 t) (iblk m c 1 t) (iblk m c 2 t) (iblk m c 3 t) (iblk m c 4 t) (iblk m c 5 t) (iblk m c 6 t) (iblk m c 7 t) := by dsimp only [dats]

/-! Each input's current staging buffer holds its block at every point, fetched there or not. -/
theorem before_0 (c : Dev nD) (t : Fin cfg0.N) (d) : (dats m 0 c).before 0 t d = iblk m c 0 t := before_in0 m (dats m 0 c) (A_eq m c 0) (after_0 m c) t d
theorem before_1 (c : Dev nD) (t : Fin cfg0.N) (d) : (dats m 0 c).before 1 t d = iblk m c 1 t := before_in1 m (dats m 0 c) (A_eq m c 1) (after_1 m c) t d
theorem before_2 (c : Dev nD) (t : Fin cfg0.N) (d) : (dats m 0 c).before 2 t d = iblk m c 2 t := before_in2 m (dats m 0 c) (A_eq m c 2) (after_2 m c) t d
theorem before_3 (c : Dev nD) (t : Fin cfg0.N) (d) : (dats m 0 c).before 3 t d = iblk m c 3 t := before_in3 m (dats m 0 c) (A_eq m c 3) (after_3 m c) t d
theorem before_4 (c : Dev nD) (t : Fin cfg0.N) (d) : (dats m 0 c).before 4 t d = iblk m c 4 t := before_in4 m (dats m 0 c) (A_eq m c 4) (after_4 m c) t d
theorem before_5 (c : Dev nD) (t : Fin cfg0.N) (d) : (dats m 0 c).before 5 t d = iblk m c 5 t := before_in5 m (dats m 0 c) (A_eq m c 5) (after_5 m c) t d
theorem before_6 (c : Dev nD) (t : Fin cfg0.N) (d) : (dats m 0 c).before 6 t d = iblk m c 6 t := before_in6 m (dats m 0 c) (A_eq m c 6) (after_6 m c) t d
theorem before_7 (c : Dev nD) (t : Fin cfg0.N) (d) : (dats m 0 c).before 7 t d = iblk m c 7 t := before_in7 m (dats m 0 c) (A_eq m c 7) (after_7 m c) t d
theorem before_8 (c : Dev nD) (t : Fin cfg0.N) (d) : (dats m 0 c).before 8 t d = iblk m c 8 t := before_in8 m (dats m 0 c) (A_eq m c 8) (after_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without fault, and every
    final state has every window's array at what the proof data gives and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Frm

end
-- ==== Proof.FrmBaseI.lean ====
/-
  The one-region program up to its region, at any float instance.

  @main is nine host operations (three joins of four arrays along an axis, two narrowings to bf16, four
  reshapes) followed by the one pipelined region over sixteen grid points. This module names what a core's
  buffers hold when the region is entered — the launch contents after the nine operations — shows that @main
  is that host stretch followed by the region, and names each window's block at a grid point as read off the
  window's array at region entry.
-/
import proofs.«153274_j14920716386505_1_alg».proof.Proof.Gen.KernelIdeal.Launch
import proofs.«153274_j14920716386505_1_alg».proof.Proof.Gen.KernelIdeal.Skeleton
import proofs.«153274_j14920716386505_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- Core `c`'s buffers when the region is entered: the launch contents after the nine host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Frm

end
-- ==== Proof.FrmCasesI.lean ====
/-
  Two families of facts about the one-region program, one instance per index.
  (1) None of the nine host operations before the region writes argument array k (k = 0 … 17): the region
      finds it as launched.
  (2) Input window w (w = 0 … 8) holds its own block in its current staging buffer at every grid point,
      whether the pipeline fetched it there or not: a window that is not fetched has not moved.
-/
import proofs.«153274_j14920716386505_1_alg».proof.Proof.FrmBaseI

set_option maxRecDepth 16384

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Input window 0's current staging buffer holds its block at every point. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Frm

end
-- ==== Proof.FrmI.lean ====
/-
  The frame of the one-region program, at any float instance.

  Windows 0 to 2 (the three activation arrays) move with the grid point, block t being rows 512·t to
  512·t + 511; windows 3 to 8 (fused weights twice, the bias row, three peephole rows) have a constant block
  index and are fetched once; windows 9 and 10 are the two results, written back at every point. The body
  reads its nine input blocks whole, computes, and overwrites both output blocks whole (it also loads each
  output block first and drops the value), so after the body an output's buffer holds one covering piece:
  the stored value as a function of the nine input blocks. With that as proof data — inputs left in place,
  outputs at that piece, nothing kept between points — the pipeline's run theorem gives termination
  without fault and a postcondition naming every window's array and every other buffer; the argument arrays
  come out as launched.
-/
import proofs.«153274_j14920716386505_1_alg».proof.Proof.FrmCasesI

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the run's -/

/-- For any proof data over the arrays `V`, a run to the pipeline's frame post leaves every argument array as
    launched: a staged argument (windows 0 to 2) by the post's clause on the windows' arrays, which for an input
    window is its entry contents; every other argument by the clause on the remaining buffers. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## The body's accesses: every load and store is of a whole buffer -/

abbrev rA : Rect S512x1024 := Rect.unit (s := S512x1024) ![0, 0] S512x1024.size inb_S512x1024_S512x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0
abbrev rV : Rect S1x1024 := Rect.unit (s := S1x1024) ![0, 0] S1x1024.size inb_S1x1024_S1x1024_0_0

/-! ## What the body leaves in each output window's buffer -/

/-- The first result's buffer after the body: one piece, the new hidden state's block, from the nine input blocks. -/
def outH (x0 x1 x2 : Vec F S512x1024 .f32) (x3 x4 : Vec F S1024x4096 .bf16) (x5 : Vec F S1x4096 .f32) (x6 x7 x8 : Vec F S1x1024 .f32) : Vec F S512x1024 .f32 :=
  View.canon [⟨rA, k0_pay1 (k0_pay3 (View.ld x0 rA) (View.ld x1 rA) (View.ld x3 rW) (View.ld x4 rW) (View.ld x5 rB))
    (k0_pay4 (View.ld x0 rA) (View.ld x1 rA) (View.ld x2 rA) (View.ld x3 rW) (View.ld x4 rW) (View.ld x5 rB) (View.ld x6 rV) (View.ld x7 rV))
    (k0_pay5 (View.ld x8 rV))⟩]

/-- The second result's buffer after the body: one piece, the new cell state's block. -/
def outC (x0 x1 x2 : Vec F S512x1024 .f32) (x3 x4 : Vec F S1024x4096 .bf16) (x5 : Vec F S1x4096 .f32) (x6 x7 : Vec F S1x1024 .f32) : Vec F S512x1024 .f32 :=
  View.canon [⟨rA, k0_pay4 (View.ld x0 rA) (View.ld x1 rA) (View.ld x2 rA) (View.ld x3 rW) (View.ld x4 rW) (View.ld x5 rB) (View.ld x6 rV) (View.ld x7 rV)⟩]

/-- One whole-buffer store covers the buffer. -/
theorem cover_out (p0 : Vec F S512x1024 .f32) (y : S512x1024.Idx) :
    ∃ pc ∈ ([⟨rA, p0⟩] : List (View.Piece (Elt F) S512x1024 .f32)), y ∈ pc.1.set :=
  View.cover_of_tiled [⟨rA, p0⟩] S512x1024.size (by rfl) y

/-! ## The body's triple -/

set_option maxHeartbeats 4000000 in
/-- The kernel body on whole staging memrefs — the nine inputs' at read contents `x0 … x8`, the two outputs' at
    anything — runs to the continuation holding the inputs' as they were and the outputs' at `outH` and `outC`
    of the inputs'. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S512x1024 .f32) (harg10 : arg10.IsWhole)
    (arg11 : Memref sig .tc .vmem S512x1024 .f32) (harg11 : arg11.IsWhole)
    (x0 x1 x2 : Vec F S512x1024 .f32) (x3 x4 : Vec F S1024x4096 .bf16) (x5 : Vec F S1x4096 .f32) (x6 x7 x8 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (outH x0 x1 x2 x3 x4 x5 x6 x7 x8)
            ∗ owns (c : Thread nD τ) arg11 fullShare (outC x0 x1 x2 x3 x4 x5 x6 x7)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_out _)
  iexists _; isplitr
  swap; · iexact H10
  ipureintro
  exact View.read_writes_eq_canon _ _ _ (cover_out _)

/-! ## The pipeline's proof data -/

/-- The proof data of the one pipeline on core `c`: the arrays as the region finds them; after the body at
    point `t` each input's buffer at its block and each output's at its piece over the input blocks; nothing
    kept between points beyond the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outH (iblk m c 0 t) (iblk m c 1 t) (iblk m c 2 t) (iblk m c 3 t) (iblk m c 4 t) (iblk m c 5 t) (iblk m c 6 t) (iblk m c 7 t) (iblk m c 8 t)
    | ⟨10, _⟩ => outC (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t
    = outH (iblk m c 0 t) (iblk m c 1 t) (iblk m c 2 t) (iblk m c 3 t) (iblk m c 4 t) (iblk m c 5 t) (iblk m c 6 t) (iblk m c 7 t) (iblk m c 8 t) := by dsimp only [dats]
theorem after_10 (c : Dev nD) (t : Fin cfg0.N) : (dats m 0 c).after 10 t
    = outC (iblk m c 0 t) (iblk m c 1 t) (iblk m c 2 t) (iblk m c 3 t) (iblk m c 4 t) (iblk m c 5 t) (iblk m c 6 t) (iblk m c 7 t) := by dsimp only [dats]

/-! Each input's current staging buffer holds its block at every point, fetched there or not. -/
theorem before_0 (c : Dev nD) (t : Fin cfg0.N) (d) : (dats m 0 c).before 0 t d = iblk m c 0 t := before_in0 m (dats m 0 c) (A_eq m c 0) (after_0 m c) t d
theorem before_1 (c : Dev nD) (t : Fin cfg0.N) (d) : (dats m 0 c).before 1 t d = iblk m c 1 t := before_in1 m (dats m 0 c) (A_eq m c 1) (after_1 m c) t d
theorem before_2 (c : Dev nD) (t : Fin cfg0.N) (d) : (dats m 0 c).before 2 t d = iblk m c 2 t := before_in2 m (dats m 0 c) (A_eq m c 2) (after_2 m c) t d
theorem before_3 (c : Dev nD) (t : Fin cfg0.N) (d) : (dats m 0 c).before 3 t d = iblk m c 3 t := before_in3 m (dats m 0 c) (A_eq m c 3) (after_3 m c) t d
theorem before_4 (c : Dev nD) (t : Fin cfg0.N) (d) : (dats m 0 c).before 4 t d = iblk m c 4 t := before_in4 m (dats m 0 c) (A_eq m c 4) (after_4 m c) t d
theorem before_5 (c : Dev nD) (t : Fin cfg0.N) (d) : (dats m 0 c).before 5 t d = iblk m c 5 t := before_in5 m (dats m 0 c) (A_eq m c 5) (after_5 m c) t d
theorem before_6 (c : Dev nD) (t : Fin cfg0.N) (d) : (dats m 0 c).before 6 t d = iblk m c 6 t := before_in6 m (dats m 0 c) (A_eq m c 6) (after_6 m c) t d
theorem before_7 (c : Dev nD) (t : Fin cfg0.N) (d) : (dats m 0 c).before 7 t d = iblk m c 7 t := before_in7 m (dats m 0 c) (A_eq m c 7) (after_7 m c) t d
theorem before_8 (c : Dev nD) (t : Fin cfg0.N) (d) : (dats m 0 c).before 8 t d = iblk m c 8 t := before_in8 m (dats m 0 c) (A_eq m c 8) (after_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without fault, and every
    final state has every window's array at what the proof data gives and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Frm

end
-- ==== Proof.HostVals.lean ====
/-
  What the region finds in the six windows the host operations made, at the extended reals: the two fused
  weight arrays are the joins of the four gate matrices (the narrowing to bf16 is the identity here) — the
  very arrays the reference multiplies by —, the bias row is the joined bias vector laid out as one row, and
  each peephole row is its vector laid out as one row.
-/
import proofs.«153274_j14920716386505_1_alg».proof.Proof.FrmBaseI
import proofs.«153274_j14920716386505_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open Idealize.ShloMosaic Idealize.ShloMosaic.TcCoe Idealize.ShloMosaic.ValueIdx Idealize.SL.Sem

namespace Cert.KernelIdeal.HostVals

open Cert.KernelIdeal Cert.KernelIdeal.Gen Cert.KernelIdeal.Frm

variable (m : (ℓ : Loc nD τ sig) → Buf (Elt Ideal) ℓ)

/-- The input-side fused weights as the region finds them: the join of the four input-side gate matrices. -/
theorem fusedW (c : Dev nD) (k : Fin 1024) (n : Fin 4096) :
    (V m c main_v1 : S1024x4096.Idx → EReal) (ix2 k n)
      = Cert.ReferenceIdeal.Read.val_main_v0 (F := Ideal) (m ((c : Thread nD τ).loc main_arg3)) (m ((c : Thread nD τ).loc main_arg4))
          (m ((c : Thread nD τ).loc main_arg5)) (m ((c : Thread nD τ).loc main_arg6)) (ix2 k n) := by
  have e : (V m c main_v1 : S1024x4096.Idx → EReal) = Cert.ReferenceIdeal.Read.val_main_v0 (F := Ideal) (m ((c : Thread nD τ).loc main_arg3)) (m ((c : Thread nD τ).loc main_arg4))
      (m ((c : Thread nD τ).loc main_arg5)) (m ((c : Thread nD τ).loc main_arg6)) := by
    dsimp only [V]
    simp only [hostOps0, List.flatten_cons, List.flatten_nil, List.append_nil, List.cons_append, List.nil_append]
    after_results
    rfl
  rw [e]

/-- The recurrent-side fused weights: the join of the four recurrent-side gate matrices. -/
theorem fusedU (c : Dev nD) (k : Fin 1024) (n : Fin 4096) :
    (V m c main_v3 : S1024x4096.Idx → EReal) (ix2 k n)
      = Cert.ReferenceIdeal.Read.val_main_v1 (F := Ideal) (m ((c : Thread nD τ).loc main_arg7)) (m ((c : Thread nD τ).loc main_arg8))
          (m ((c : Thread nD τ).loc main_arg9)) (m ((c : Thread nD τ).loc main_arg10)) (ix2 k n) := by
  have e : (V m c main_v3 : S1024x4096.Idx → EReal) = Cert.ReferenceIdeal.Read.val_main_v1 (F := Ideal) (m ((c : Thread nD τ).loc main_arg7)) (m ((c : Thread nD τ).loc main_arg8))
      (m ((c : Thread nD τ).loc main_arg9)) (m ((c : Thread nD τ).loc main_arg10)) := by
    dsimp only [V]
    simp only [hostOps0, List.flatten_cons, List.flatten_nil, List.append_nil, List.cons_append, List.nil_append]
    after_results
    rfl
  rw [e]

/-- The bias row: the joined bias vector. -/
theorem biasRow (c : Dev nD) (n : Fin 4096) :
    (V m c main_v5 : S1x4096.Idx → EReal) (ix2 (0 : Fin 1) n)
      = Cert.ReferenceIdeal.Read.val_main_v2 (F := Ideal) (m ((c : Thread nD τ).loc main_arg14)) (m ((c : Thread nD τ).loc main_arg15))
          (m ((c : Thread nD τ).loc main_arg16)) (m ((c : Thread nD τ).loc main_arg17)) (ix1 n) := by
  have e : (V m c main_v5 : S1x4096.Idx → EReal) = shapeCast S1x4096 (Cert.ReferenceIdeal.Read.val_main_v2 (F := Ideal) (m ((c : Thread nD τ).loc main_arg14)) (m ((c : Thread nD τ).loc main_arg15))
      (m ((c : Thread nD τ).loc main_arg16)) (m ((c : Thread nD τ).loc main_arg17))) shapeCasts_S4096_S1x4096 := by
    dsimp only [V]
    simp only [hostOps0, List.flatten_cons, List.flatten_nil, List.append_nil, List.cons_append, List.nil_append]
    after_results
    rfl
  rw [e]
  exact shapeCast_a_1a_apply _ shapeCasts_S4096_S1x4096 (0 : Fin 1) n

/-- The input gate's peephole row. -/
theorem peepI (c : Dev nD) (j : Fin 1024) :
    (V m c main_v6 : S1x1024.Idx → EReal) (ix2 (0 : Fin 1) j) = (m ((c : Thread nD τ).loc main_arg11) : S1024.Idx → EReal) (ix1 j) := by
  have e : (V m c main_v6 : S1x1024.Idx → EReal) = shapeCast S1x1024 (m ((c : Thread nD τ).loc main_arg11) : S1024.Idx → EReal) shapeCasts_S1024_S1x1024 := by
    dsimp only [V]
    simp only [hostOps0, List.flatten_cons, List.flatten_nil, List.append_nil, List.cons_append, List.nil_append]
    after_results
    rfl
  rw [e]
  exact shapeCast_a_1a_apply _ shapeCasts_S1024_S1x1024 (0 : Fin 1) j

/-- The forget gate's peephole row. -/
theorem peepF (c : Dev nD) (j : Fin 1024) :
    (V m c main_v7 : S1x1024.Idx → EReal) (ix2 (0 : Fin 1) j) = (m ((c : Thread nD τ).loc main_arg12) : S1024.Idx → EReal) (ix1 j) := by
  have e : (V m c main_v7 : S1x1024.Idx → EReal) = shapeCast S1x1024 (m ((c : Thread nD τ).loc main_arg12) : S1024.Idx → EReal) shapeCasts_S1024_S1x1024 := by
    dsimp only [V]
    simp only [hostOps0, List.flatten_cons, List.flatten_nil, List.append_nil, List.cons_append, List.nil_append]
    after_results
    rfl
  rw [e]
  exact shapeCast_a_1a_apply _ shapeCasts_S1024_S1x1024 (0 : Fin 1) j

/-- The output gate's peephole row. -/
theorem peepO (c : Dev nD) (j : Fin 1024) :
    (V m c main_v8 : S1x1024.Idx → EReal) (ix2 (0 : Fin 1) j) = (m ((c : Thread nD τ).loc main_arg13) : S1024.Idx → EReal) (ix1 j) := by
  have e : (V m c main_v8 : S1x1024.Idx → EReal) = shapeCast S1x1024 (m ((c : Thread nD τ).loc main_arg13) : S1024.Idx → EReal) shapeCasts_S1024_S1x1024 := by
    dsimp only [V]
    simp only [hostOps0, List.flatten_cons, List.flatten_nil, List.append_nil, List.cons_append, List.nil_append]
    after_results
    rfl
  rw [e]
  exact shapeCast_a_1a_apply _ shapeCasts_S1024_S1x1024 (0 : Fin 1) j

end Cert.KernelIdeal.HostVals

end
-- ==== Proof.LstmSpec.lean ====
/-
  The peephole LSTM cell, one row at a time, over the extended reals.

  For one batch row with input `xr`, hidden state `hr` and cell state `cr` (each a function of the unit or
  feature index), fused weights `W`, `U` (the four gates' matrices side by side along the columns: gate g's
  unit j sits at fused column g·1024 + j, in the order input, forget, candidate, output) and fused bias `b`,
  the pre-activation at fused column n is

      z n = Σ_k xr k · W k n  +  Σ_k hr k · U k n  +  b n,

  and with σ t = 1 / (1 + e^(−t)) and peephole vectors v_i, v_f, v_o the cell computes

      i = σ (z_i + v_i · c),   f = σ (z_f + v_f · c),   c' = f · c + i · tanh z_c,
      o = σ (z_o + v_o · c'),  h' = o · tanh c'.

  Both programs of the certificate compute (h', c') at every row; the sums are kept in this one order and
  grouping on both sides, so no law of the extended reals beyond reading each operation at an index is used,
  and the infinities need no care.
-/
import Idealize.ShloMosaic.PureOps.Ideal

noncomputable section

open scoped BigOperators
open Idealize.ShloMosaic

namespace Cert.Lstm

/-- Fused column of the input gate's unit `j`. -/
def colI (j : Fin 1024) : Fin 4096 := ⟨j.val, by omega⟩
/-- Fused column of the forget gate's unit `j`. -/
def colF (j : Fin 1024) : Fin 4096 := ⟨1024 + j.val, by omega⟩
/-- Fused column of the candidate's unit `j`. -/
def colC (j : Fin 1024) : Fin 4096 := ⟨2048 + j.val, by omega⟩
/-- Fused column of the output gate's unit `j`. -/
def colO (j : Fin 1024) : Fin 4096 := ⟨3072 + j.val, by omega⟩

/-- The fused pre-activation of one row at fused column `n`: the two products summed in this order, then the bias. -/
def preact (xr hr : Fin 1024 → EReal) (W U : Fin 1024 → Fin 4096 → EReal) (b : Fin 4096 → EReal) (n : Fin 4096) : EReal :=
  (∑ k : Fin 1024, xr k * W k n) + (∑ k : Fin 1024, hr k * U k n) + b n

/-- The new cell state of one row at unit `j`: forget gate times the old state plus input gate times the candidate. -/
def cell (xr hr cr : Fin 1024 → EReal) (W U : Fin 1024 → Fin 4096 → EReal) (b : Fin 4096 → EReal)
    (vi vf : Fin 1024 → EReal) (j : Fin 1024) : EReal :=
  Ideal.logistic (preact xr hr W U b (colF j) + vf j * cr j) * cr j
    + Ideal.logistic (preact xr hr W U b (colI j) + vi j * cr j) * Ideal.tanh (preact xr hr W U b (colC j))

/-- The new hidden state of one row at unit `j`: the output gate, which peeks at the NEW cell state, times its tanh. -/
def hidden (xr hr cr : Fin 1024 → EReal) (W U : Fin 1024 → Fin 4096 → EReal) (b : Fin 4096 → EReal)
    (vi vf vo : Fin 1024 → EReal) (j : Fin 1024) : EReal :=
  Ideal.logistic (preact xr hr W U b (colO j) + vo j * cell xr hr cr W U b vi vf j) * Ideal.tanh (cell xr hr cr W U b vi vf j)

end Cert.Lstm

end
-- ==== Proof.BlockRows.lean ====
/-
  The kernel body's two stored values, read one row of the block at a time, at the extended reals: at row p
  of the 512-row block and unit q they are the LSTM cell's new cell state and new hidden state
  (Proof/LstmSpec.lean) of row p of the three activation blocks, the resident fused weights, bias row and
  peephole rows. The narrowing to bf16 before the matrix unit is the identity on the extended reals, a
  matrix product into the zero accumulator is the plain sum over the shared axis, and the four column
  slices of the fused pre-activation pick the four gates.
-/
import proofs.«153274_j14920716386505_1_alg».proof.Proof.Gen.KernelIdeal.Skeleton
import proofs.«153274_j14920716386505_1_alg».proof.Proof.LstmSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.BlockRows

open Cert.KernelIdeal Cert.KernelIdeal.Gen

/-- The left operand's index of the matrix product keeps the output's row. -/
theorem lhs_dot_0 (i : S512x4096.Idx) (q : dot_S512x1024_S1024x4096_S512x4096_1_0_0_1_n_n.contr.Idx) :
    (dot_S512x1024_S1024x4096_S512x4096_1_0_0_1_n_n.lhsIdx i q 0).val = (i 0).val := by
  unfold DotDims.lhsIdx
  rw [dif_neg (show ¬(0 : Fin S512x1024.rank) ∈ dot_S512x1024_S1024x4096_S512x4096_1_0_0_1_n_n.lhsBatch by decide), dif_pos (show (0 : Fin S512x1024.rank) ∈ dot_S512x1024_S1024x4096_S512x4096_1_0_0_1_n_n.lhsNonContracting by decide)]
  rfl
/-- The left operand's column is the shared index. -/
theorem lhs_dot_1 (i : S512x4096.Idx) (q : dot_S512x1024_S1024x4096_S512x4096_1_0_0_1_n_n.contr.Idx) :
    (dot_S512x1024_S1024x4096_S512x4096_1_0_0_1_n_n.lhsIdx i q 1).val = (q ⟨0, by decide⟩).val :=
  dot_S512x1024_S1024x4096_S512x4096_1_0_0_1_n_n.lhsIdx_val_of_single rfl i q
/-- The right operand's row is the shared index. -/
theorem rhs_dot_0 (i : S512x4096.Idx) (q : dot_S512x1024_S1024x4096_S512x4096_1_0_0_1_n_n.contr.Idx) :
    (dot_S512x1024_S1024x4096_S512x4096_1_0_0_1_n_n.rhsIdx i q 0).val = (q ⟨0, by decide⟩).val :=
  dot_S512x1024_S1024x4096_S512x4096_1_0_0_1_n_n.rhsIdx_val_of_single rfl i q
/-- The right operand's index keeps the output's column. -/
theorem rhs_dot_1 (i : S512x4096.Idx) (q : dot_S512x1024_S1024x4096_S512x4096_1_0_0_1_n_n.contr.Idx) :
    (dot_S512x1024_S1024x4096_S512x4096_1_0_0_1_n_n.rhsIdx i q 1).val = (i 1).val := by
  unfold DotDims.rhsIdx
  rw [dif_neg (show ¬(1 : Fin S1024x4096.rank) ∈ dot_S512x1024_S1024x4096_S512x4096_1_0_0_1_n_n.rhsBatch by decide), dif_pos (show (1 : Fin S1024x4096.rank) ∈ dot_S512x1024_S1024x4096_S512x4096_1_0_0_1_n_n.rhsNonContracting by decide)]
  rfl

/-- A matrix product into the zero accumulator, at row `p` and column `n`: the sum over the shared axis. -/
theorem matmul_row (x : FVec Ideal S512x1024 .bf16) (y : FVec Ideal S1024x4096 .bf16) (p : Fin 512) (n : Fin 4096) :
    matmul (F := Ideal) dot_S512x1024_S1024x4096_S512x4096_1_0_0_1_n_n none x y (constant (F := Ideal) S512x4096 .f32 0x00000000#32) (ix2 p n)
      = ∑ k : Fin 1024, x (ix2 p k) * y (ix2 k n) := by
  simp only [matmul]
  rw [Ideal.matmul_constant_zero_apply, ← Equiv.sum_comp (ValueIdx.contrEquiv1 dot_S512x1024_S1024x4096_S512x4096_1_0_0_1_n_n 1024 rfl rfl).symm]
  refine Finset.sum_congr rfl fun k _ => ?_
  have hk := ValueIdx.contrEquiv1_symm_val dot_S512x1024_S1024x4096_S512x4096_1_0_0_1_n_n 1024 rfl rfl k
  have el : dot_S512x1024_S1024x4096_S512x4096_1_0_0_1_n_n.lhsIdx (ix2 p n) ((ValueIdx.contrEquiv1 dot_S512x1024_S1024x4096_S512x4096_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S512x1024_S1024x4096_S512x4096_1_0_0_1_n_n.rhsIdx (ix2 p n) ((ValueIdx.contrEquiv1 dot_S512x1024_S1024x4096_S512x4096_1_0_0_1_n_n 1024 rfl rfl).symm k) = ix2 k n := funext fun a => Fin.ext (by
    match a with
    | ⟨0, _⟩ => exact (rhs_dot_0 _ _).trans hk
    | ⟨1, _⟩ => exact rhs_dot_1 _ _)
  rw [el, er]

/-- The bias row broadcast down the block's rows, at row `p`, column `n`: the row's entry at `n`. -/
theorem bias_row (b : Vec Ideal S1x4096 .f32) (p : Fin 512) (n : Fin 4096) :
    broadcastTo S512x4096 b broadcasts_S1x4096_S512x4096 (ix2 p n) = b (ix2 (0 : Fin 1) n) :=
  broadcastTo_apply b broadcasts_S1x4096_S512x4096 (ix2 p n) (ix2 (0 : Fin 1) n) (fun a => match a with
    | ⟨0, _⟩ => by show (0 : Nat) = if (1 : Nat) = 1 then 0 else p.val; rw [if_pos rfl]
    | ⟨1, _⟩ => by show n.val = if (4096 : Nat) = 1 then 0 else n.val; rw [if_neg (by decide)])

/-- A peephole row broadcast down the block's rows, at row `p`, unit `q`: the row's entry at `q`. -/
theorem peephole_row (v : Vec Ideal S1x1024 .f32) (p : Fin 512) (q : Fin 1024) :
    broadcastTo S512x1024 v broadcasts_S1x1024_S512x1024 (ix2 p q) = v (ix2 (0 : Fin 1) q) :=
  broadcastTo_apply v broadcasts_S1x1024_S512x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- The fused pre-activation block at row `p`, fused column `n`: the two products' sums in the programs' order, then the bias row. -/
theorem preact_block (xb hb : Vec Ideal S512x1024 .f32) (w u : Vec Ideal S1024x4096 .bf16) (b : Vec Ideal S1x4096 .f32)
    (p : Fin 512) (n : Fin 4096) :
    k0_pay2 (F := Ideal) xb hb w u b (ix2 p n)
      = Cert.Lstm.preact (fun k => xb (ix2 p k)) (fun k => hb (ix2 p k)) (fun k n => w (ix2 k n)) (fun k n => u (ix2 k n))
          (fun n => b (ix2 (0 : Fin 1) n)) n := by
  unfold k0_pay2 Cert.Lstm.preact
  rw [shapeCast_self, shapeCast_self, shapeCast_self]
  exact congrArg₂ (· + ·) (congrArg₂ (· + ·) (matmul_row _ _ p n) (matmul_row _ _ p n)) (bias_row b p n)

/-- The slice at column offset 0 is the input gate's columns. -/
theorem slice_I (z : FVec Ideal S512x4096 .f32) (p : Fin 512) (q : Fin 1024) :
    extractStridedSlice S512x1024 ![0, 0] z slices_S512x4096_o0_0_S512x1024 (ix2 p q) = z (ix2 p (Cert.Lstm.colI q)) :=
  extractStridedSlice_apply ![0, 0] z slices_S512x4096_o0_0_S512x1024 (ix2 p q) (ix2 p (Cert.Lstm.colI q)) (fun a => match a with
    | ⟨0, _⟩ => by show p.val = 0 + p.val; omega
    | ⟨1, _⟩ => by show q.val = 0 + q.val; omega)
/-- The slice at column offset 1024 is the forget gate's columns. -/
theorem slice_F (z : FVec Ideal S512x4096 .f32) (p : Fin 512) (q : Fin 1024) :
    extractStridedSlice S512x1024 ![0, 1024] z slices_S512x4096_o0_1024_S512x1024 (ix2 p q) = z (ix2 p (Cert.Lstm.colF q)) :=
  extractStridedSlice_apply ![0, 1024] z slices_S512x4096_o0_1024_S512x1024 (ix2 p q) (ix2 p (Cert.Lstm.colF q)) (fun a => match a with
    | ⟨0, _⟩ => by show p.val = 0 + p.val; omega
    | ⟨1, _⟩ => by show 1024 + q.val = 1024 + q.val; rfl)
/-- The slice at column offset 2048 is the candidate's columns. -/
theorem slice_C (z : FVec Ideal S512x4096 .f32) (p : Fin 512) (q : Fin 1024) :
    extractStridedSlice S512x1024 ![0, 2048] z slices_S512x4096_o0_2048_S512x1024 (ix2 p q) = z (ix2 p (Cert.Lstm.colC q)) :=
  extractStridedSlice_apply ![0, 2048] z slices_S512x4096_o0_2048_S512x1024 (ix2 p q) (ix2 p (Cert.Lstm.colC q)) (fun a => match a with
    | ⟨0, _⟩ => by show p.val = 0 + p.val; omega
    | ⟨1, _⟩ => by show 2048 + q.val = 2048 + q.val; rfl)
/-- The slice at column offset 3072 is the output gate's columns. -/
theorem slice_O (z : FVec Ideal S512x4096 .f32) (p : Fin 512) (q : Fin 1024) :
    extractStridedSlice S512x1024 ![0, 3072] z slices_S512x4096_o0_3072_S512x1024 (ix2 p q) = z (ix2 p (Cert.Lstm.colO q)) :=
  extractStridedSlice_apply ![0, 3072] z slices_S512x4096_o0_3072_S512x1024 (ix2 p q) (ix2 p (Cert.Lstm.colO q)) (fun a => match a with
    | ⟨0, _⟩ => by show p.val = 0 + p.val; omega
    | ⟨1, _⟩ => by show 3072 + q.val = 3072 + q.val; rfl)

/-- The value the body stores into the second output's block (the new cell state) at row `p`, unit `q`. -/
theorem cell_block (xb hb cb : Vec Ideal S512x1024 .f32) (w u : Vec Ideal S1024x4096 .bf16) (b : Vec Ideal S1x4096 .f32)
    (vi vf : Vec Ideal S1x1024 .f32) (p : Fin 512) (q : Fin 1024) :
    k0_pay4 (F := Ideal) xb hb cb w u b vi vf (ix2 p q)
      = Cert.Lstm.cell (fun k => xb (ix2 p k)) (fun k => hb (ix2 p k)) (fun k => cb (ix2 p k))
          (fun k n => w (ix2 k n)) (fun k n => u (ix2 k n)) (fun n => b (ix2 (0 : Fin 1) n))
          (fun k => vi (ix2 (0 : Fin 1) k)) (fun k => vf (ix2 (0 : Fin 1) k)) q := by
  unfold k0_pay4 Cert.Lstm.cell
  rw [shapeCast_self, shapeCast_self]
  show Ideal.logistic
          (extractStridedSlice S512x1024 ![0, 1024] (k0_pay2 (F := Ideal) xb hb w u b) slices_S512x4096_o0_1024_S512x1024 (ix2 p q)
            + broadcastTo S512x1024 vf broadcasts_S1x1024_S512x1024 (ix2 p q) * cb (ix2 p q)) * cb (ix2 p q)
        + Ideal.logistic
            (extractStridedSlice S512x1024 ![0, 0] (k0_pay2 (F := Ideal) xb hb w u b) slices_S512x4096_o0_0_S512x1024 (ix2 p q)
              + broadcastTo S512x1024 vi broadcasts_S1x1024_S512x1024 (ix2 p q) * cb (ix2 p q))
          * Ideal.tanh
              (extractStridedSlice S512x1024 ![0, 2048] (k0_pay2 (F := Ideal) xb hb w u b) slices_S512x4096_o0_2048_S512x1024 (ix2 p q))
      = _
  rw [slice_F, slice_I, slice_C, peephole_row, peephole_row, preact_block, preact_block, preact_block]

/-- The value the body stores into the first output's block (the new hidden state) at row `p`, unit `q`. -/
theorem hidden_block (xb hb cb : Vec Ideal S512x1024 .f32) (w u : Vec Ideal S1024x4096 .bf16) (b : Vec Ideal S1x4096 .f32)
    (vi vf vo : Vec Ideal S1x1024 .f32) (p : Fin 512) (q : Fin 1024) :
    k0_pay1 (F := Ideal) (k0_pay3 (F := Ideal) xb hb w u b) (k0_pay4 (F := Ideal) xb hb cb w u b vi vf) (k0_pay5 (F := Ideal) vo) (ix2 p q)
      = Cert.Lstm.hidden (fun k => xb (ix2 p k)) (fun k => hb (ix2 p k)) (fun k => cb (ix2 p k))
          (fun k n => w (ix2 k n)) (fun k n => u (ix2 k n)) (fun n => b (ix2 (0 : Fin 1) n))
          (fun k => vi (ix2 (0 : Fin 1) k)) (fun k => vf (ix2 (0 : Fin 1) k)) (fun k => vo (ix2 (0 : Fin 1) k)) q := by
  unfold k0_pay1 k0_pay3 k0_pay5 Cert.Lstm.hidden
  rw [shapeCast_self]
  show Ideal.logistic
          (extractStridedSlice S512x1024 ![0, 3072] (k0_pay2 (F := Ideal) xb hb w u b) slices_S512x4096_o0_3072_S512x1024 (ix2 p q)
            + broadcastTo S512x1024 vo broadcasts_S1x1024_S512x1024 (ix2 p q) * k0_pay4 (F := Ideal) xb hb cb w u b vi vf (ix2 p q))
        * Ideal.tanh (k0_pay4 (F := Ideal) xb hb cb w u b vi vf (ix2 p q))
      = _
  rw [slice_O, peephole_row, cell_block, preact_block]

end Cert.KernelIdeal.BlockRows

end
-- ==== Proof.LstmArrays.lean ====
/-
  The LSTM cell's two results as whole arrays: entry (r, j) of the new cell state and of the new hidden
  state is the one-row function (Proof/LstmSpec.lean) of row r of the three activation arrays, with the
  fused weights, the fused bias and the peephole vectors read as plain functions of their coordinates.
-/
import proofs.«153274_j14920716386505_1_alg».proof.Proof.LstmSpec
import Idealize.ShloMosaic.Lib.ValueIdx

noncomputable section

open Idealize.ShloMosaic Idealize.ShloMosaic.ValueIdx

namespace Cert.Lstm

/-- The new cell state, all 8192 rows. -/
def cellArr (X H C : (⟨2, ![8192, 1024]⟩ : Shape).Idx → EReal) (W U : (⟨2, ![1024, 4096]⟩ : Shape).Idx → EReal)
    (b : (⟨1, ![4096]⟩ : Shape).Idx → EReal) (vi vf : (⟨1, ![1024]⟩ : Shape).Idx → EReal) : (⟨2, ![8192, 1024]⟩ : Shape).Idx → EReal :=
  fun i => cell (fun k => X (ix2 (i 0) k)) (fun k => H (ix2 (i 0) k)) (fun k => C (ix2 (i 0) k))
    (fun k n => W (ix2 k n)) (fun k n => U (ix2 k n)) (fun n => b (ix1 n)) (fun k => vi (ix1 k)) (fun k => vf (ix1 k)) (i 1)

/-- The new hidden state, all 8192 rows. -/
def hiddenArr (X H C : (⟨2, ![8192, 1024]⟩ : Shape).Idx → EReal) (W U : (⟨2, ![1024, 4096]⟩ : Shape).Idx → EReal)
    (b : (⟨1, ![4096]⟩ : Shape).Idx → EReal) (vi vf vo : (⟨1, ![1024]⟩ : Shape).Idx → EReal) : (⟨2, ![8192, 1024]⟩ : Shape).Idx → EReal :=
  fun i => hidden (fun k => X (ix2 (i 0) k)) (fun k => H (ix2 (i 0) k)) (fun k => C (ix2 (i 0) k))
    (fun k n => W (ix2 k n)) (fun k n => U (ix2 k n)) (fun n => b (ix1 n)) (fun k => vi (ix1 k)) (fun k => vf (ix1 k)) (fun k => vo (ix1 k)) (i 1)

/-- At explicit coordinates. -/
theorem cellArr_ix2 (X H C : (⟨2, ![8192, 1024]⟩ : Shape).Idx → EReal) (W U : (⟨2, ![1024, 4096]⟩ : Shape).Idx → EReal)
    (b : (⟨1, ![4096]⟩ : Shape).Idx → EReal) (vi vf : (⟨1, ![1024]⟩ : Shape).Idx → EReal) (r : Fin 8192) (j : Fin 1024) :
    cellArr X H C W U b vi vf (ix2 r j) = cell (fun k => X (ix2 r k)) (fun k => H (ix2 r k)) (fun k => C (ix2 r k))
      (fun k n => W (ix2 k n)) (fun k n => U (ix2 k n)) (fun n => b (ix1 n)) (fun k => vi (ix1 k)) (fun k => vf (ix1 k)) j := rfl

/-- At explicit coordinates. -/
theorem hiddenArr_ix2 (X H C : (⟨2, ![8192, 1024]⟩ : Shape).Idx → EReal) (W U : (⟨2, ![1024, 4096]⟩ : Shape).Idx → EReal)
    (b : (⟨1, ![4096]⟩ : Shape).Idx → EReal) (vi vf vo : (⟨1, ![1024]⟩ : Shape).Idx → EReal) (r : Fin 8192) (j : Fin 1024) :
    hiddenArr X H C W U b vi vf vo (ix2 r j) = hidden (fun k => X (ix2 r k)) (fun k => H (ix2 r k)) (fun k => C (ix2 r k))
      (fun k n => W (ix2 k n)) (fun k n => U (ix2 k n)) (fun n => b (ix1 n)) (fun k => vi (ix1 k)) (fun k => vf (ix1 k)) (fun k => vo (ix1 k)) j := rfl

end Cert.Lstm

end
-- ==== Proof.KernelCover.lean ====
/-
  The sixteen blocks of each result array tile its 8192 rows: block t is rows 512·t to 512·t + 511 and all
  1024 columns, so the index (r, j) lies in the block of the point t = r / 512.
-/
import proofs.«153274_j14920716386505_1_alg».proof.Proof.FrmI
import Idealize.ShloMosaic.Lib.Pipeline.Value

set_option maxRecDepth 16384

noncomputable section

open Idealize.ShloMosaic Idealize.ShloMosaic.TcCoe Idealize.SL.Sem

namespace Cert.KernelIdeal.KVal

open Cert.KernelIdeal Cert.KernelIdeal.Gen Cert.KernelIdeal.Frm

/-- Every one of the sixteen row blocks of the first result's array is some point's, at column block 0. -/
theorem rows_onto9 : ∀ q : Fin 16, ∃ t : Fin cfg0.N, win0_9.index t = ![q.val, 0] :=
  (by decide +kernel : ∀ q : Fin 16, ∃ t : Fin grid0.N, win0_9.index t = ![q.val, 0])

/-- An index of the first result's array is in point `t`'s block iff each coordinate is in the block's range on its axis. -/
theorem mem_block9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v9_0).slice (win0_9.rect t)).set ↔ _
  rw [View.set_slice_whole, Rect.mem_set_unit]
  exact Iff.rfl

/-- Every index of the first result's array lies in some point's block. -/
theorem coverH (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, ht⟩ := rows_onto9 ⟨(i 0).val / 512, by omega⟩
  have q0 : win0_9.index t (0 : Fin 2) = (i 0).val / 512 := congrFun ht 0
  have q1 : win0_9.index t (1 : Fin 2) = 0 := congrFun ht 1
  refine ⟨t, flush0_9 t, ?_⟩
  rw [mem_block9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- Every one of the sixteen row blocks of the second result's array is some point's, at column block 0. -/
theorem rows_onto10 : ∀ q : Fin 16, ∃ t : Fin cfg0.N, win0_10.index t = ![q.val, 0] :=
  (by decide +kernel : ∀ q : Fin 16, ∃ t : Fin grid0.N, win0_10.index t = ![q.val, 0])

/-- An index of the second result's array is in point `t`'s block iff each coordinate is in the block's range on its axis. -/
theorem mem_block10 (t : Fin cfg0.N) (i : S8192x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v9_1).slice (win0_10.rect t)).set ↔ _
  rw [View.set_slice_whole, Rect.mem_set_unit]
  exact Iff.rfl

/-- Every index of the second result's array lies in some point's block. -/
theorem coverC (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  obtain ⟨t, ht⟩ := rows_onto10 ⟨(i 0).val / 512, by omega⟩
  have q0 : win0_10.index t (0 : Fin 2) = (i 0).val / 512 := congrFun ht 0
  have q1 : win0_10.index t (1 : Fin 2) = 0 := congrFun ht 1
  refine ⟨t, flush0_10 t, ?_⟩
  rw [mem_block10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 1024 ≤ (i 1).val ∧ (i 1).val < win0_10.index t (1 : Fin 2) * 1024 + 1024; omega

end Cert.KernelIdeal.KVal

end
-- ==== Proof.KernelEmb.lean ====
/-
  Where a block sits in its array. A window's block at grid point t is the box of its array whose corner on
  each axis is (block index on that axis) x (block extent on that axis): index y of the block is index
  (block index x extent + y) of the array, axis by axis. The region's printed index maps, decided over the
  sixteen points, give the three activation windows and the two result windows block index (t, 0) -- rows
  512 t to 512 t + 511 and all 1024 columns -- and the six resident windows block index (0, 0), the whole array.
  One pair of lemmas per window: the decided block index, and the array index of a block index.
-/
import proofs.«153274_j14920716386505_1_alg».proof.Proof.FrmI
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem

namespace Cert.KernelIdeal.KVal

open Cert.KernelIdeal Cert.KernelIdeal.Gen Cert.KernelIdeal.Frm

/-- The array row that row `p` of point `t`'s block is: 512 t + p. -/
def row (t : Fin cfg0.N) (p : Fin 512) : Fin 8192 := ⟨512 * t.val + p.val, by have h : t.val < 16 := t.isLt; omega⟩

/-- Window 0 (the input array) takes block (t, 0) at point t (decided over the sixteen points). -/
theorem idx0 : ∀ t : Fin cfg0.N, win0_0.index t (0 : Fin 2) = t.val ∧ win0_0.index t (1 : Fin 2) = 0 :=
  (by decide +kernel : ∀ t : Fin grid0.N, _)
/-- Index (p, k) of point `t`'s block of the input array is index (512 t + p, k) of the array. -/
theorem emb0 (t : Fin cfg0.N) (p : Fin 512) (k : Fin 1024) : ((cfg0.win 0).blk t).view.emb (ix2 p k) = ix2 (row t p) k := by
  obtain ⟨e0, e1⟩ := idx0 t
  funext a; apply Fin.ext
  match a with
  | ⟨0, _⟩ => show win0_0.index t (0 : Fin 2) * 512 + 1 * p.val = 512 * t.val + p.val; omega
  | ⟨1, _⟩ => show win0_0.index t (1 : Fin 2) * 1024 + 1 * k.val = k.val; omega

/-- Window 1 (the old hidden state's array) takes block (t, 0) at point t (decided over the sixteen points). -/
theorem idx1 : ∀ t : Fin cfg0.N, win0_1.index t (0 : Fin 2) = t.val ∧ win0_1.index t (1 : Fin 2) = 0 :=
  (by decide +kernel : ∀ t : Fin grid0.N, _)
/-- Index (p, k) of point `t`'s block of the old hidden state's array is index (512 t + p, k) of the array. -/
theorem emb1 (t : Fin cfg0.N) (p : Fin 512) (k : Fin 1024) : ((cfg0.win 1).blk t).view.emb (ix2 p k) = ix2 (row t p) k := by
  obtain ⟨e0, e1⟩ := idx1 t
  funext a; apply Fin.ext
  match a with
  | ⟨0, _⟩ => show win0_1.index t (0 : Fin 2) * 512 + 1 * p.val = 512 * t.val + p.val; omega
  | ⟨1, _⟩ => show win0_1.index t (1 : Fin 2) * 1024 + 1 * k.val = k.val; omega

/-- Window 2 (the old cell state's array) takes block (t, 0) at point t (decided over the sixteen points). -/
theorem idx2 : ∀ t : Fin cfg0.N, win0_2.index t (0 : Fin 2) = t.val ∧ win0_2.index t (1 : Fin 2) = 0 :=
  (by decide +kernel : ∀ t : Fin grid0.N, _)
/-- Index (p, k) of point `t`'s block of the old cell state's array is index (512 t + p, k) of the array. -/
theorem emb2 (t : Fin cfg0.N) (p : Fin 512) (k : Fin 1024) : ((cfg0.win 2).blk t).view.emb (ix2 p k) = ix2 (row t p) k := by
  obtain ⟨e0, e1⟩ := idx2 t
  funext a; apply Fin.ext
  match a with
  | ⟨0, _⟩ => show win0_2.index t (0 : Fin 2) * 512 + 1 * p.val = 512 * t.val + p.val; omega
  | ⟨1, _⟩ => show win0_2.index t (1 : Fin 2) * 1024 + 1 * k.val = k.val; omega

/-- Window 3 (the input-side fused weights) takes block (0, 0) at every point (decided over the sixteen points). -/
theorem idx3 : ∀ t : Fin cfg0.N, win0_3.index t (0 : Fin 2) = 0 ∧ win0_3.index t (1 : Fin 2) = 0 :=
  (by decide +kernel : ∀ t : Fin grid0.N, _)
/-- Index (k, n) of the block of the input-side fused weights, at any point, is index (k, n) of the array: the block is the whole array. -/
theorem emb3 (t : Fin cfg0.N) (k : Fin 1024) (n : Fin 4096) : ((cfg0.win 3).blk t).view.emb (ix2 k n) = ix2 k n := by
  obtain ⟨e0, e1⟩ := idx3 t
  funext a; apply Fin.ext
  match a with
  | ⟨0, _⟩ => show win0_3.index t (0 : Fin 2) * 1024 + 1 * k.val = k.val; omega
  | ⟨1, _⟩ => show win0_3.index t (1 : Fin 2) * 4096 + 1 * n.val = n.val; omega

/-- Window 4 (the recurrent-side fused weights) takes block (0, 0) at every point (decided over the sixteen points). -/
theorem idx4 : ∀ t : Fin cfg0.N, win0_4.index t (0 : Fin 2) = 0 ∧ win0_4.index t (1 : Fin 2) = 0 :=
  (by decide +kernel : ∀ t : Fin grid0.N, _)
/-- Index (k, n) of the block of the recurrent-side fused weights, at any point, is index (k, n) of the array: the block is the whole array. -/
theorem emb4 (t : Fin cfg0.N) (k : Fin 1024) (n : Fin 4096) : ((cfg0.win 4).blk t).view.emb (ix2 k n) = ix2 k n := by
  obtain ⟨e0, e1⟩ := idx4 t
  funext a; apply Fin.ext
  match a with
  | ⟨0, _⟩ => show win0_4.index t (0 : Fin 2) * 1024 + 1 * k.val = k.val; omega
  | ⟨1, _⟩ => show win0_4.index t (1 : Fin 2) * 4096 + 1 * n.val = n.val; omega

/-- Window 5 (the bias row) takes block (0, 0) at every point (decided over the sixteen points). -/
theorem idx5 : ∀ t : Fin cfg0.N, win0_5.index t (0 : Fin 2) = 0 ∧ win0_5.index t (1 : Fin 2) = 0 :=
  (by decide +kernel : ∀ t : Fin grid0.N, _)
/-- Index (k, n) of the block of the bias row, at any point, is index (k, n) of the array: the block is the whole array. -/
theorem emb5 (t : Fin cfg0.N) (k : Fin 1) (n : Fin 4096) : ((cfg0.win 5).blk t).view.emb (ix2 k n) = ix2 k n := by
  obtain ⟨e0, e1⟩ := idx5 t
  funext a; apply Fin.ext
  match a with
  | ⟨0, _⟩ => show win0_5.index t (0 : Fin 2) * 1 + 1 * k.val = k.val; omega
  | ⟨1, _⟩ => show win0_5.index t (1 : Fin 2) * 4096 + 1 * n.val = n.val; omega

/-- Window 6 (the input gate's peephole row) takes block (0, 0) at every point (decided over the sixteen points). -/
theorem idx6 : ∀ t : Fin cfg0.N, win0_6.index t (0 : Fin 2) = 0 ∧ win0_6.index t (1 : Fin 2) = 0 :=
  (by decide +kernel : ∀ t : Fin grid0.N, _)
/-- Index (k, n) of the block of the input gate's peephole row, at any point, is index (k, n) of the array: the block is the whole array. -/
theorem emb6 (t : Fin cfg0.N) (k : Fin 1) (n : Fin 1024) : ((cfg0.win 6).blk t).view.emb (ix2 k n) = ix2 k n := by
  obtain ⟨e0, e1⟩ := idx6 t
  funext a; apply Fin.ext
  match a with
  | ⟨0, _⟩ => show win0_6.index t (0 : Fin 2) * 1 + 1 * k.val = k.val; omega
  | ⟨1, _⟩ => show win0_6.index t (1 : Fin 2) * 1024 + 1 * n.val = n.val; omega

/-- Window 7 (the forget gate's peephole row) takes block (0, 0) at every point (decided over the sixteen points). -/
theorem idx7 : ∀ t : Fin cfg0.N, win0_7.index t (0 : Fin 2) = 0 ∧ win0_7.index t (1 : Fin 2) = 0 :=
  (by decide +kernel : ∀ t : Fin grid0.N, _)
/-- Index (k, n) of the block of the forget gate's peephole row, at any point, is index (k, n) of the array: the block is the whole array. -/
theorem emb7 (t : Fin cfg0.N) (k : Fin 1) (n : Fin 1024) : ((cfg0.win 7).blk t).view.emb (ix2 k n) = ix2 k n := by
  obtain ⟨e0, e1⟩ := idx7 t
  funext a; apply Fin.ext
  match a with
  | ⟨0, _⟩ => show win0_7.index t (0 : Fin 2) * 1 + 1 * k.val = k.val; omega
  | ⟨1, _⟩ => show win0_7.index t (1 : Fin 2) * 1024 + 1 * n.val = n.val; omega

/-- Window 8 (the output gate's peephole row) takes block (0, 0) at every point (decided over the sixteen points). -/
theorem idx8 : ∀ t : Fin cfg0.N, win0_8.index t (0 : Fin 2) = 0 ∧ win0_8.index t (1 : Fin 2) = 0 :=
  (by decide +kernel : ∀ t : Fin grid0.N, _)
/-- Index (k, n) of the block of the output gate's peephole row, at any point, is index (k, n) of the array: the block is the whole array. -/
theorem emb8 (t : Fin cfg0.N) (k : Fin 1) (n : Fin 1024) : ((cfg0.win 8).blk t).view.emb (ix2 k n) = ix2 k n := by
  obtain ⟨e0, e1⟩ := idx8 t
  funext a; apply Fin.ext
  match a with
  | ⟨0, _⟩ => show win0_8.index t (0 : Fin 2) * 1 + 1 * k.val = k.val; omega
  | ⟨1, _⟩ => show win0_8.index t (1 : Fin 2) * 1024 + 1 * n.val = n.val; omega

/-- Window 9 (the new hidden state's array) takes block (t, 0) at point t (decided over the sixteen points). -/
theorem idx9 : ∀ t : Fin cfg0.N, win0_9.index t (0 : Fin 2) = t.val ∧ win0_9.index t (1 : Fin 2) = 0 :=
  (by decide +kernel : ∀ t : Fin grid0.N, _)
/-- Index (p, k) of point `t`'s block of the new hidden state's array is index (512 t + p, k) of the array. -/
theorem emb9 (t : Fin cfg0.N) (p : Fin 512) (k : Fin 1024) : ((cfg0.win 9).blk t).view.emb (ix2 p k) = ix2 (row t p) k := by
  obtain ⟨e0, e1⟩ := idx9 t
  funext a; apply Fin.ext
  match a with
  | ⟨0, _⟩ => show win0_9.index t (0 : Fin 2) * 512 + 1 * p.val = 512 * t.val + p.val; omega
  | ⟨1, _⟩ => show win0_9.index t (1 : Fin 2) * 1024 + 1 * k.val = k.val; omega

/-- Window 10 (the new cell state's array) takes block (t, 0) at point t (decided over the sixteen points). -/
theorem idx10 : ∀ t : Fin cfg0.N, win0_10.index t (0 : Fin 2) = t.val ∧ win0_10.index t (1 : Fin 2) = 0 :=
  (by decide +kernel : ∀ t : Fin grid0.N, _)
/-- Index (p, k) of point `t`'s block of the new cell state's array is index (512 t + p, k) of the array. -/
theorem emb10 (t : Fin cfg0.N) (p : Fin 512) (k : Fin 1024) : ((cfg0.win 10).blk t).view.emb (ix2 p k) = ix2 (row t p) k := by
  obtain ⟨e0, e1⟩ := idx10 t
  funext a; apply Fin.ext
  match a with
  | ⟨0, _⟩ => show win0_10.index t (0 : Fin 2) * 512 + 1 * p.val = 512 * t.val + p.val; omega
  | ⟨1, _⟩ => show win0_10.index t (1 : Fin 2) * 1024 + 1 * k.val = k.val; omega

end Cert.KernelIdeal.KVal

end
-- ==== Proof.KernelVal.lean ====
/-
  From blocks to arrays, at the extended reals. Grid point t writes back, into rows 512·t to 512·t + 511 of
  each result array, the body's stored block; read row by row that block is the LSTM cell's one-row function
  of the matching rows of the activation arrays (whose blocks at point t are those same rows) and of the
  resident windows, which the region finds holding the fused weights, the bias row and the peephole rows.
  So what point t writes back is block t of ONE whole-array function of the launch contents; the sixteen
  blocks tile the 8192 rows (row r lies in block r / 512).
-/
import proofs.«153274_j14920716386505_1_alg».proof.Proof.FrmI
import proofs.«153274_j14920716386505_1_alg».proof.Proof.HostVals
import proofs.«153274_j14920716386505_1_alg».proof.Proof.BlockRows
import proofs.«153274_j14920716386505_1_alg».proof.Proof.LstmArrays
import proofs.«153274_j14920716386505_1_alg».proof.Proof.KernelCover
import proofs.«153274_j14920716386505_1_alg».proof.Proof.KernelEmb
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KVal

open Cert.KernelIdeal Cert.KernelIdeal.Gen Cert.KernelIdeal.Frm

variable (m : (ℓ : Loc nD τ sig) → Buf (Elt Ideal) ℓ)

/-- The new cell state as one function of core `c`'s launch contents. -/
abbrev cellOf (c : Dev nD) : S8192x1024.Idx → EReal :=
  Cert.Lstm.cellArr (m ((c : Thread nD τ).loc main_arg0)) (m ((c : Thread nD τ).loc main_arg1)) (m ((c : Thread nD τ).loc main_arg2))
    (Cert.ReferenceIdeal.Read.val_main_v0 (F := Ideal) (m ((c : Thread nD τ).loc main_arg3)) (m ((c : Thread nD τ).loc main_arg4)) (m ((c : Thread nD τ).loc main_arg5)) (m ((c : Thread nD τ).loc main_arg6)))
    (Cert.ReferenceIdeal.Read.val_main_v1 (F := Ideal) (m ((c : Thread nD τ).loc main_arg7)) (m ((c : Thread nD τ).loc main_arg8)) (m ((c : Thread nD τ).loc main_arg9)) (m ((c : Thread nD τ).loc main_arg10)))
    (Cert.ReferenceIdeal.Read.val_main_v2 (F := Ideal) (m ((c : Thread nD τ).loc main_arg14)) (m ((c : Thread nD τ).loc main_arg15)) (m ((c : Thread nD τ).loc main_arg16)) (m ((c : Thread nD τ).loc main_arg17)))
    (m ((c : Thread nD τ).loc main_arg11)) (m ((c : Thread nD τ).loc main_arg12))

/-- The new hidden state as one function of core `c`'s launch contents. -/
abbrev hiddenOf (c : Dev nD) : S8192x1024.Idx → EReal :=
  Cert.Lstm.hiddenArr (m ((c : Thread nD τ).loc main_arg0)) (m ((c : Thread nD τ).loc main_arg1)) (m ((c : Thread nD τ).loc main_arg2))
    (Cert.ReferenceIdeal.Read.val_main_v0 (F := Ideal) (m ((c : Thread nD τ).loc main_arg3)) (m ((c : Thread nD τ).loc main_arg4)) (m ((c : Thread nD τ).loc main_arg5)) (m ((c : Thread nD τ).loc main_arg6)))
    (Cert.ReferenceIdeal.Read.val_main_v1 (F := Ideal) (m ((c : Thread nD τ).loc main_arg7)) (m ((c : Thread nD τ).loc main_arg8)) (m ((c : Thread nD τ).loc main_arg9)) (m ((c : Thread nD τ).loc main_arg10)))
    (Cert.ReferenceIdeal.Read.val_main_v2 (F := Ideal) (m ((c : Thread nD τ).loc main_arg14)) (m ((c : Thread nD τ).loc main_arg15)) (m ((c : Thread nD τ).loc main_arg16)) (m ((c : Thread nD τ).loc main_arg17)))
    (m ((c : Thread nD τ).loc main_arg11)) (m ((c : Thread nD τ).loc main_arg12)) (m ((c : Thread nD τ).loc main_arg13))

/-- The offsets of every load and store of the body: the zero corner. -/
theorem hz : (![0, 0] : Fin 2 → Nat) = fun _ => 0 := funext fun a => by fin_cases a <;> rfl

/-- Row `p` of point `t`'s block of the input array is row 512·t + p of the array as launched. -/
theorem blkX (c : Dev nD) (t : Fin cfg0.N) (p : Fin 512) (k : Fin 1024) :
    (iblk m c 0 t : S512x1024.Idx → EReal) (ix2 p k) = (m ((c : Thread nD τ).loc main_arg0) : S8192x1024.Idx → EReal) (ix2 (row t p) k) := by
  show V m c main_arg0 (((cfg0.win 0).blk t).view.emb (ix2 p k)) = _
  rw [emb0, V_main_arg0]

/-- Row `p` of point `t`'s block of the old hidden state's array is row 512·t + p of the array as launched. -/
theorem blkH (c : Dev nD) (t : Fin cfg0.N) (p : Fin 512) (k : Fin 1024) :
    (iblk m c 1 t : S512x1024.Idx → EReal) (ix2 p k) = (m ((c : Thread nD τ).loc main_arg1) : S8192x1024.Idx → EReal) (ix2 (row t p) k) := by
  show V m c main_arg1 (((cfg0.win 1).blk t).view.emb (ix2 p k)) = _
  rw [emb1, V_main_arg1]

/-- Row `p` of point `t`'s block of the old cell state's array is row 512·t + p of the array as launched. -/
theorem blkC (c : Dev nD) (t : Fin cfg0.N) (p : Fin 512) (k : Fin 1024) :
    (iblk m c 2 t : S512x1024.Idx → EReal) (ix2 p k) = (m ((c : Thread nD τ).loc main_arg2) : S8192x1024.Idx → EReal) (ix2 (row t p) k) := by
  show V m c main_arg2 (((cfg0.win 2).blk t).view.emb (ix2 p k)) = _
  rw [emb2, V_main_arg2]

/-- The input-side weight window's block, at any point, is the join of the four input-side gate matrices. -/
theorem blkW (c : Dev nD) (t : Fin cfg0.N) (k : Fin 1024) (n : Fin 4096) :
    (iblk m c 3 t : S1024x4096.Idx → EReal) (ix2 k n)
      = Cert.ReferenceIdeal.Read.val_main_v0 (F := Ideal) (m ((c : Thread nD τ).loc main_arg3)) (m ((c : Thread nD τ).loc main_arg4))
          (m ((c : Thread nD τ).loc main_arg5)) (m ((c : Thread nD τ).loc main_arg6)) (ix2 k n) := by
  show V m c main_v1 (((cfg0.win 3).blk t).view.emb (ix2 k n)) = _
  rw [emb3]; exact HostVals.fusedW m c k n

/-- The recurrent-side weight window's block is the join of the four recurrent-side gate matrices. -/
theorem blkU (c : Dev nD) (t : Fin cfg0.N) (k : Fin 1024) (n : Fin 4096) :
    (iblk m c 4 t : S1024x4096.Idx → EReal) (ix2 k n)
      = Cert.ReferenceIdeal.Read.val_main_v1 (F := Ideal) (m ((c : Thread nD τ).loc main_arg7)) (m ((c : Thread nD τ).loc main_arg8))
          (m ((c : Thread nD τ).loc main_arg9)) (m ((c : Thread nD τ).loc main_arg10)) (ix2 k n) := by
  show V m c main_v3 (((cfg0.win 4).blk t).view.emb (ix2 k n)) = _
  rw [emb4]; exact HostVals.fusedU m c k n

/-- The bias window's block is the joined bias vector, as one row. -/
theorem blkB (c : Dev nD) (t : Fin cfg0.N) (n : Fin 4096) :
    (iblk m c 5 t : S1x4096.Idx → EReal) (ix2 (0 : Fin 1) n)
      = Cert.ReferenceIdeal.Read.val_main_v2 (F := Ideal) (m ((c : Thread nD τ).loc main_arg14)) (m ((c : Thread nD τ).loc main_arg15))
          (m ((c : Thread nD τ).loc main_arg16)) (m ((c : Thread nD τ).loc main_arg17)) (ix1 n) := by
  show V m c main_v5 (((cfg0.win 5).blk t).view.emb (ix2 (0 : Fin 1) n)) = _
  rw [emb5]; exact HostVals.biasRow m c n

/-- The input gate's peephole window's block is its vector, as one row. -/
theorem blkVi (c : Dev nD) (t : Fin cfg0.N) (j : Fin 1024) :
    (iblk m c 6 t : S1x1024.Idx → EReal) (ix2 (0 : Fin 1) j) = (m ((c : Thread nD τ).loc main_arg11) : S1024.Idx → EReal) (ix1 j) := by
  show V m c main_v6 (((cfg0.win 6).blk t).view.emb (ix2 (0 : Fin 1) j)) = _
  rw [emb6]; exact HostVals.peepI m c j

/-- The forget gate's peephole window's block is its vector, as one row. -/
theorem blkVf (c : Dev nD) (t : Fin cfg0.N) (j : Fin 1024) :
    (iblk m c 7 t : S1x1024.Idx → EReal) (ix2 (0 : Fin 1) j) = (m ((c : Thread nD τ).loc main_arg12) : S1024.Idx → EReal) (ix1 j) := by
  show V m c main_v7 (((cfg0.win 7).blk t).view.emb (ix2 (0 : Fin 1) j)) = _
  rw [emb7]; exact HostVals.peepF m c j

/-- The output gate's peephole window's block is its vector, as one row. -/
theorem blkVo (c : Dev nD) (t : Fin cfg0.N) (j : Fin 1024) :
    (iblk m c 8 t : S1x1024.Idx → EReal) (ix2 (0 : Fin 1) j) = (m ((c : Thread nD τ).loc main_arg13) : S1024.Idx → EReal) (ix1 j) := by
  show V m c main_v8 (((cfg0.win 8).blk t).view.emb (ix2 (0 : Fin 1) j)) = _
  rw [emb8]; exact HostVals.peepO m c j

/-- What point `t` writes back to the second result's array is block `t` of the new cell state. -/
theorem flushedC_eq (c : Dev nD) (t : Fin cfg0.N) :
    (dats m 0 c).flushed 10 t = ((cfg0.win 10).blk t).view.read (Elt Ideal) (cellOf m c) := by
  show (cfg0.win 10).cut (grid0.coords t) ((dats m 0 c).after 10 t) = _
  rw [after_10]
  unfold outC
  rw [View.canon_unit_zero hz]
  simp only [View.ld_unit_zero (S := S512x1024) hz, View.ld_unit_zero (S := S1024x4096) hz, View.ld_unit_zero (S := S1x4096) hz, View.ld_unit_zero (S := S1x1024) hz]
  funext y
  obtain ⟨p, q, rfl⟩ : ∃ (p : Fin 512) (q : Fin 1024), y = ix2 p q := ⟨y 0, y 1, eq_ix2 y⟩
  refine (BlockRows.cell_block (iblk m c 0 t) (iblk m c 1 t) (iblk m c 2 t) (iblk m c 3 t) (iblk m c 4 t) (iblk m c 5 t) (iblk m c 6 t) (iblk m c 7 t) p q).trans ?_
  show _ = cellOf m c (((cfg0.win 10).blk t).view.emb (ix2 p q))
  rw [emb10]
  unfold cellOf
  rw [Cert.Lstm.cellArr_ix2]
  simp only [blkX, blkH, blkC, blkW, blkU, blkB, blkVi, blkVf]

/-- What point `t` writes back to the first result's array is block `t` of the new hidden state. -/
theorem flushedH_eq (c : Dev nD) (t : Fin cfg0.N) :
    (dats m 0 c).flushed 9 t = ((cfg0.win 9).blk t).view.read (Elt Ideal) (hiddenOf m c) := by
  show (cfg0.win 9).cut (grid0.coords t) ((dats m 0 c).after 9 t) = _
  rw [after_9]
  unfold outH
  rw [View.canon_unit_zero hz]
  simp only [View.ld_unit_zero (S := S512x1024) hz, View.ld_unit_zero (S := S1024x4096) hz, View.ld_unit_zero (S := S1x4096) hz, View.ld_unit_zero (S := S1x1024) hz]
  funext y
  obtain ⟨p, q, rfl⟩ : ∃ (p : Fin 512) (q : Fin 1024), y = ix2 p q := ⟨y 0, y 1, eq_ix2 y⟩
  refine (BlockRows.hidden_block (iblk m c 0 t) (iblk m c 1 t) (iblk m c 2 t) (iblk m c 3 t) (iblk m c 4 t) (iblk m c 5 t) (iblk m c 6 t) (iblk m c 7 t) (iblk m c 8 t) p q).trans ?_
  show _ = hiddenOf m c (((cfg0.win 9).blk t).view.emb (ix2 p q))
  rw [emb9]
  unfold hiddenOf
  rw [Cert.Lstm.hiddenArr_ix2]
  simp only [blkX, blkH, blkC, blkW, blkU, blkB, blkVi, blkVf, blkVo]

/-- The first result's array after the run. -/
theorem finalH (c : Dev nD) : (dats m 0 c).arrAt 9 cfg0.N = hiddenOf m c :=
  (dats m 0 c).arrAt_eq_of_cover 9 (hiddenOf m c) (fun t _ => flushedH_eq m c t) coverH

/-- The second result's array after the run. -/
theorem finalC (c : Dev nD) : (dats m 0 c).arrAt 10 cfg0.N = cellOf m c :=
  (dats m 0 c).arrAt_eq_of_cover 10 (cellOf m c) (fun t _ => flushedC_eq m c t) coverC

end Cert.KernelIdeal.KVal

end
-- ==== Proof.KernelRun.lean ====
/-
  The idealized kernel's run with both result arrays named: every weakly fair execution of @main ends,
  without fault, with the first result array at the new hidden state and the second at the new cell state
  of the launch contents, and every argument array as launched. It is the frame run, its postcondition
  read at the two output windows' arrays (what the sixteen written-back blocks add up to) and at the
  argument arrays.
-/
import proofs.«153274_j14920716386505_1_alg».proof.Proof.KernelVal

set_option maxRecDepth 16384

noncomputable section

open Idealize.ShloMosaic Idealize.ShloMosaic.TcCoe Idealize.SL.Sem

namespace Cert.KernelIdeal.KVal

open Cert.KernelIdeal Cert.KernelIdeal.Gen Cert.KernelIdeal.Frm

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v9_0) = hiddenOf m c
      ∧ r.2.mem ((c.tc : Thread nD τ).loc main_v9_1) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨
      ((h c).1 9).trans (finalH m c),
      ((h c).1 10).trans (finalC m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩)
    (run_main (F := Ideal) m ρ)

end Cert.KernelIdeal.KVal

end
-- ==== Proof.RefRows.lean ====
/-
  The reference's two results, read one row at a time: at row r and unit j they are the LSTM cell's new cell
  state and new hidden state (Proof/LstmSpec.lean) of row r of the inputs, the fused weights, bias and the
  peephole vectors. The reference spells the logistic function out as 1 / (1 + e^(−t)), which is what
  the extended reals' logistic IS; its two products are dot products along the shared axis.
-/
import proofs.«153274_j14920716386505_1_alg».proof.Proof.Gen.ReferenceIdeal.Read
import proofs.«153274_j14920716386505_1_alg».proof.Proof.LstmSpec
import Idealize.ShloMosaic.Lib.ValueIdx

noncomputable section

open scoped BigOperators
open Idealize.ShloMosaic Idealize.ShloMosaic.ValueIdx

namespace Cert.ReferenceIdeal.RefRows

open Cert.ReferenceIdeal Cert.ReferenceIdeal.Read

/-- The word of the constant 1.0 denotes the extended real 1. -/
theorem one_bits : Ideal.ofBits .f32 0x3F800000#32 = 1 := by
  simp [Ideal.ofBits, Ideal.ieee, -EReal.coe_mul]; norm_num

/-- The fused pre-activation: the reference's sum of the two dot products and the broadcast bias, at row `r` and
    fused column `n`. -/
theorem preact_eq (x0 x1 : (⟨S8192x1024, .f32⟩ : BufTy).Contents (Elt Ideal)) (x3 x4 x5 x6 x7 x8 x9 x10 : (⟨S1024x1024, .f32⟩ : BufTy).Contents (Elt Ideal))
    (x14 x15 x16 x17 : (⟨S1024, .f32⟩ : BufTy).Contents (Elt Ideal)) (r : Fin 8192) (n : Fin 4096) :
    val_main_v8 (F := Ideal) x0 x1 x3 x4 x5 x6 x7 x8 x9 x10 x14 x15 x16 x17 (ix2 r n)
      = Cert.Lstm.preact (fun k => x0 (ix2 r k)) (fun k => x1 (ix2 r k))
          (fun k n => val_main_v0 (F := Ideal) x3 x4 x5 x6 (ix2 k n)) (fun k n => val_main_v1 (F := Ideal) x7 x8 x9 x10 (ix2 k n))
          (fun n => val_main_v2 (F := Ideal) x14 x15 x16 x17 (ix1 n)) n := by
  have el3 : ∀ k : Fin 1024, lidx_main_v3 (ix2 r n) k = ix2 r k := fun k =>
    funext fun a => Fin.ext (by match a with | ⟨0, _⟩ => rfl | ⟨1, _⟩ => rfl)
  have er3 : ∀ k : Fin 1024, ridx_main_v3 (ix2 r n) k = ix2 k n := fun k =>
    funext fun a => Fin.ext (by match a with | ⟨0, _⟩ => rfl | ⟨1, _⟩ => rfl)
  have el4 : ∀ k : Fin 1024, lidx_main_v4 (ix2 r n) k = ix2 r k := fun k =>
    funext fun a => Fin.ext (by match a with | ⟨0, _⟩ => rfl | ⟨1, _⟩ => rfl)
  have er4 : ∀ k : Fin 1024, ridx_main_v4 (ix2 r n) k = ix2 k n := fun k =>
    funext fun a => Fin.ext (by match a with | ⟨0, _⟩ => rfl | ⟨1, _⟩ => rfl)
  have eb : idx_main_v6 (idx_main_v7 (ix2 r n)) = ix1 n :=
    funext fun a => Fin.ext (by match a with | ⟨0, _⟩ => rfl)
  rw [val_main_v8_apply, val_main_v5_apply, val_main_v3_apply, val_main_v4_apply, val_main_v7_apply, val_main_v6_apply, eb]
  simp only [el3, er3, el4, er4, Ideal.addf_def]
  rfl

/-- The four gate slices of the fused pre-activation read their gate's fused column. -/
theorem sliceI_eq (x0 x1 : (⟨S8192x1024, .f32⟩ : BufTy).Contents (Elt Ideal)) (x3 x4 x5 x6 x7 x8 x9 x10 : (⟨S1024x1024, .f32⟩ : BufTy).Contents (Elt Ideal))
    (x14 x15 x16 x17 : (⟨S1024, .f32⟩ : BufTy).Contents (Elt Ideal)) (r : Fin 8192) (j : Fin 1024) :
    val_main_v9 (F := Ideal) x0 x1 x3 x4 x5 x6 x7 x8 x9 x10 x14 x15 x16 x17 (ix2 r j)
      = Cert.Lstm.preact (fun k => x0 (ix2 r k)) (fun k => x1 (ix2 r k))
          (fun k n => val_main_v0 (F := Ideal) x3 x4 x5 x6 (ix2 k n)) (fun k n => val_main_v1 (F := Ideal) x7 x8 x9 x10 (ix2 k n))
          (fun n => val_main_v2 (F := Ideal) x14 x15 x16 x17 (ix1 n)) (Cert.Lstm.colI j) := by
  have e : idx_main_v9 (ix2 r j) = ix2 r (Cert.Lstm.colI j) :=
    funext fun a => Fin.ext (by match a with | ⟨0, _⟩ => rfl | ⟨1, _⟩ => rfl)
  rw [val_main_v9_apply, e, preact_eq]

theorem sliceF_eq (x0 x1 : (⟨S8192x1024, .f32⟩ : BufTy).Contents (Elt Ideal)) (x3 x4 x5 x6 x7 x8 x9 x10 : (⟨S1024x1024, .f32⟩ : BufTy).Contents (Elt Ideal))
    (x14 x15 x16 x17 : (⟨S1024, .f32⟩ : BufTy).Contents (Elt Ideal)) (r : Fin 8192) (j : Fin 1024) :
    val_main_v10 (F := Ideal) x0 x1 x3 x4 x5 x6 x7 x8 x9 x10 x14 x15 x16 x17 (ix2 r j)
      = Cert.Lstm.preact (fun k => x0 (ix2 r k)) (fun k => x1 (ix2 r k))
          (fun k n => val_main_v0 (F := Ideal) x3 x4 x5 x6 (ix2 k n)) (fun k n => val_main_v1 (F := Ideal) x7 x8 x9 x10 (ix2 k n))
          (fun n => val_main_v2 (F := Ideal) x14 x15 x16 x17 (ix1 n)) (Cert.Lstm.colF j) := by
  have e : idx_main_v10 (ix2 r j) = ix2 r (Cert.Lstm.colF j) :=
    funext fun a => Fin.ext (by match a with | ⟨0, _⟩ => rfl | ⟨1, _⟩ => rfl)
  rw [val_main_v10_apply, e, preact_eq]

theorem sliceC_eq (x0 x1 : (⟨S8192x1024, .f32⟩ : BufTy).Contents (Elt Ideal)) (x3 x4 x5 x6 x7 x8 x9 x10 : (⟨S1024x1024, .f32⟩ : BufTy).Contents (Elt Ideal))
    (x14 x15 x16 x17 : (⟨S1024, .f32⟩ : BufTy).Contents (Elt Ideal)) (r : Fin 8192) (j : Fin 1024) :
    val_main_v11 (F := Ideal) x0 x1 x3 x4 x5 x6 x7 x8 x9 x10 x14 x15 x16 x17 (ix2 r j)
      = Cert.Lstm.preact (fun k => x0 (ix2 r k)) (fun k => x1 (ix2 r k))
          (fun k n => val_main_v0 (F := Ideal) x3 x4 x5 x6 (ix2 k n)) (fun k n => val_main_v1 (F := Ideal) x7 x8 x9 x10 (ix2 k n))
          (fun n => val_main_v2 (F := Ideal) x14 x15 x16 x17 (ix1 n)) (Cert.Lstm.colC j) := by
  have e : idx_main_v11 (ix2 r j) = ix2 r (Cert.Lstm.colC j) :=
    funext fun a => Fin.ext (by match a with | ⟨0, _⟩ => rfl | ⟨1, _⟩ => rfl)
  rw [val_main_v11_apply, e, preact_eq]

theorem sliceO_eq (x0 x1 : (⟨S8192x1024, .f32⟩ : BufTy).Contents (Elt Ideal)) (x3 x4 x5 x6 x7 x8 x9 x10 : (⟨S1024x1024, .f32⟩ : BufTy).Contents (Elt Ideal))
    (x14 x15 x16 x17 : (⟨S1024, .f32⟩ : BufTy).Contents (Elt Ideal)) (r : Fin 8192) (j : Fin 1024) :
    val_main_v12 (F := Ideal) x0 x1 x3 x4 x5 x6 x7 x8 x9 x10 x14 x15 x16 x17 (ix2 r j)
      = Cert.Lstm.preact (fun k => x0 (ix2 r k)) (fun k => x1 (ix2 r k))
          (fun k n => val_main_v0 (F := Ideal) x3 x4 x5 x6 (ix2 k n)) (fun k n => val_main_v1 (F := Ideal) x7 x8 x9 x10 (ix2 k n))
          (fun n => val_main_v2 (F := Ideal) x14 x15 x16 x17 (ix1 n)) (Cert.Lstm.colO j) := by
  have e : idx_main_v12 (ix2 r j) = ix2 r (Cert.Lstm.colO j) :=
    funext fun a => Fin.ext (by match a with | ⟨0, _⟩ => rfl | ⟨1, _⟩ => rfl)
  rw [val_main_v12_apply, e, preact_eq]

/-- A peephole vector broadcast along the rows reads its unit's entry (the three broadcasts are one shape). -/
theorem peepI_eq (x11 : (⟨S1024, .f32⟩ : BufTy).Contents (Elt Ideal)) (r : Fin 8192) (j : Fin 1024) :
    val_main_v14 (F := Ideal) x11 (ix2 r j) = x11 (ix1 j) := by
  have e : idx_main_v13 (idx_main_v14 (ix2 r j)) = ix1 j :=
    funext fun a => Fin.ext (by match a with | ⟨0, _⟩ => rfl)
  rw [val_main_v14_apply, val_main_v13_apply, e]

theorem peepF_eq (x12 : (⟨S1024, .f32⟩ : BufTy).Contents (Elt Ideal)) (r : Fin 8192) (j : Fin 1024) :
    val_main_v24 (F := Ideal) x12 (ix2 r j) = x12 (ix1 j) := by
  have e : idx_main_v23 (idx_main_v24 (ix2 r j)) = ix1 j :=
    funext fun a => Fin.ext (by match a with | ⟨0, _⟩ => rfl)
  rw [val_main_v24_apply, val_main_v23_apply, e]

theorem peepO_eq (x13 : (⟨S1024, .f32⟩ : BufTy).Contents (Elt Ideal)) (r : Fin 8192) (j : Fin 1024) :
    val_main_v38 (F := Ideal) x13 (ix2 r j) = x13 (ix1 j) := by
  have e : idx_main_v37 (idx_main_v38 (ix2 r j)) = ix1 j :=
    funext fun a => Fin.ext (by match a with | ⟨0, _⟩ => rfl)
  rw [val_main_v38_apply, val_main_v37_apply, e]

/-- Each broadcast of the constant 1.0 reads 1 everywhere. -/
theorem one19 (i : S8192x1024.Idx) : val_main_v19 (F := Ideal) i = 1 := by
  rw [val_main_v19_apply, val_main_cst_apply]; exact one_bits
theorem one21 (i : S8192x1024.Idx) : val_main_v21 (F := Ideal) i = 1 := by
  rw [val_main_v21_apply, val_main_cst_0_apply]; exact one_bits
theorem one29 (i : S8192x1024.Idx) : val_main_v29 (F := Ideal) i = 1 := by
  rw [val_main_v29_apply, val_main_cst_1_apply]; exact one_bits
theorem one31 (i : S8192x1024.Idx) : val_main_v31 (F := Ideal) i = 1 := by
  rw [val_main_v31_apply, val_main_cst_2_apply]; exact one_bits
theorem one43 (i : S8192x1024.Idx) : val_main_v43 (F := Ideal) i = 1 := by
  rw [val_main_v43_apply, val_main_cst_3_apply]; exact one_bits
theorem one45 (i : S8192x1024.Idx) : val_main_v45 (F := Ideal) i = 1 := by
  rw [val_main_v45_apply, val_main_cst_4_apply]; exact one_bits

/-- The reference's second result (the new cell state) at row `r`, unit `j`. -/
theorem cell_eq (x0 x1 x2 : (⟨S8192x1024, .f32⟩ : BufTy).Contents (Elt Ideal)) (x3 x4 x5 x6 x7 x8 x9 x10 : (⟨S1024x1024, .f32⟩ : BufTy).Contents (Elt Ideal))
    (x11 x12 x14 x15 x16 x17 : (⟨S1024, .f32⟩ : BufTy).Contents (Elt Ideal)) (r : Fin 8192) (j : Fin 1024) :
    val_main_v36 (F := Ideal) x0 x1 x2 x3 x4 x5 x6 x7 x8 x9 x10 x11 x12 x14 x15 x16 x17 (ix2 r j)
      = Cert.Lstm.cell (fun k => x0 (ix2 r k)) (fun k => x1 (ix2 r k)) (fun k => x2 (ix2 r k))
          (fun k n => val_main_v0 (F := Ideal) x3 x4 x5 x6 (ix2 k n)) (fun k n => val_main_v1 (F := Ideal) x7 x8 x9 x10 (ix2 k n))
          (fun n => val_main_v2 (F := Ideal) x14 x15 x16 x17 (ix1 n)) (fun k => x11 (ix1 k)) (fun k => x12 (ix1 k)) j := by
  rw [val_main_v36_apply, val_main_v34_apply, val_main_v32_apply, val_main_v30_apply, val_main_v28_apply, val_main_v27_apply,
    val_main_v26_apply, val_main_v25_apply, val_main_v35_apply, val_main_v22_apply, val_main_v20_apply, val_main_v18_apply,
    val_main_v17_apply, val_main_v16_apply, val_main_v15_apply, val_main_v33_apply,
    sliceI_eq, sliceF_eq, sliceC_eq, peepI_eq, peepF_eq, one19, one21, one29, one31]
  rfl

/-- The reference's first result (the new hidden state) at row `r`, unit `j`. -/
theorem hidden_eq (x0 x1 x2 : (⟨S8192x1024, .f32⟩ : BufTy).Contents (Elt Ideal)) (x3 x4 x5 x6 x7 x8 x9 x10 : (⟨S1024x1024, .f32⟩ : BufTy).Contents (Elt Ideal))
    (x11 x12 x13 x14 x15 x16 x17 : (⟨S1024, .f32⟩ : BufTy).Contents (Elt Ideal)) (r : Fin 8192) (j : Fin 1024) :
    val_main_v48 (F := Ideal) x0 x1 x2 x3 x4 x5 x6 x7 x8 x9 x10 x11 x12 x13 x14 x15 x16 x17 (ix2 r j)
      = Cert.Lstm.hidden (fun k => x0 (ix2 r k)) (fun k => x1 (ix2 r k)) (fun k => x2 (ix2 r k))
          (fun k n => val_main_v0 (F := Ideal) x3 x4 x5 x6 (ix2 k n)) (fun k n => val_main_v1 (F := Ideal) x7 x8 x9 x10 (ix2 k n))
          (fun n => val_main_v2 (F := Ideal) x14 x15 x16 x17 (ix1 n)) (fun k => x11 (ix1 k)) (fun k => x12 (ix1 k)) (fun k => x13 (ix1 k)) j := by
  rw [val_main_v48_apply, val_main_v46_apply, val_main_v44_apply, val_main_v42_apply, val_main_v41_apply, val_main_v40_apply,
    val_main_v39_apply, val_main_v47_apply, sliceO_eq, peepO_eq, cell_eq, one43, one45]
  rfl

end Cert.ReferenceIdeal.RefRows

end
-- ==== Proof.RefArr.lean ====
/-
  The reference's two results as whole arrays: they are the LSTM cell's new hidden state and new cell
  state arrays of its arguments, entry by entry (each entry is one row's function: Proof/RefRows.lean).
-/
import proofs.«153274_j14920716386505_1_alg».proof.Proof.RefRows
import proofs.«153274_j14920716386505_1_alg».proof.Proof.LstmArrays

noncomputable section

open Idealize.ShloMosaic Idealize.ShloMosaic.ValueIdx

namespace Cert.ReferenceIdeal.RefArr

open Cert.ReferenceIdeal Cert.ReferenceIdeal.Read

/-- The reference's second result is the new cell state array. -/
theorem cell_arr (x0 x1 x2 : (⟨S8192x1024, .f32⟩ : BufTy).Contents (Elt Ideal)) (x3 x4 x5 x6 x7 x8 x9 x10 : (⟨S1024x1024, .f32⟩ : BufTy).Contents (Elt Ideal))
    (x11 x12 x14 x15 x16 x17 : (⟨S1024, .f32⟩ : BufTy).Contents (Elt Ideal)) :
    val_main_v36 (F := Ideal) x0 x1 x2 x3 x4 x5 x6 x7 x8 x9 x10 x11 x12 x14 x15 x16 x17
      = Cert.Lstm.cellArr x0 x1 x2 (val_main_v0 (F := Ideal) x3 x4 x5 x6) (val_main_v1 (F := Ideal) x7 x8 x9 x10)
          (val_main_v2 (F := Ideal) x14 x15 x16 x17) x11 x12 := by
  funext i
  obtain ⟨r, j, rfl⟩ : ∃ (r : Fin 8192) (j : Fin 1024), i = ix2 r j := ⟨i 0, i 1, eq_ix2 i⟩
  rw [Cert.Lstm.cellArr_ix2]
  exact RefRows.cell_eq x0 x1 x2 x3 x4 x5 x6 x7 x8 x9 x10 x11 x12 x14 x15 x16 x17 r j

/-- The reference's first result is the new hidden state array. -/
theorem hidden_arr (x0 x1 x2 : (⟨S8192x1024, .f32⟩ : BufTy).Contents (Elt Ideal)) (x3 x4 x5 x6 x7 x8 x9 x10 : (⟨S1024x1024, .f32⟩ : BufTy).Contents (Elt Ideal))
    (x11 x12 x13 x14 x15 x16 x17 : (⟨S1024, .f32⟩ : BufTy).Contents (Elt Ideal)) :
    val_main_v48 (F := Ideal) x0 x1 x2 x3 x4 x5 x6 x7 x8 x9 x10 x11 x12 x13 x14 x15 x16 x17
      = Cert.Lstm.hiddenArr x0 x1 x2 (val_main_v0 (F := Ideal) x3 x4 x5 x6) (val_main_v1 (F := Ideal) x7 x8 x9 x10)
          (val_main_v2 (F := Ideal) x14 x15 x16 x17) x11 x12 x13 := by
  funext i
  obtain ⟨r, j, rfl⟩ : ∃ (r : Fin 8192) (j : Fin 1024), i = ix2 r j := ⟨i 0, i 1, eq_ix2 i⟩
  rw [Cert.Lstm.hiddenArr_ix2]
  exact RefRows.hidden_eq x0 x1 x2 x3 x4 x5 x6 x7 x8 x9 x10 x11 x12 x13 x14 x15 x16 x17 r j

end Cert.ReferenceIdeal.RefArr

end
-- ==== Proof.Claims.lean ====
/-
  The five claims of the certificate.

  The three frames: each program terminates on every weakly fair execution, without fault, and leaves its
  argument arrays as launched — for the two kernel programs by the pipeline's run theorem over proof data
  that keeps every input block in place (Proof/FrmK.lean at the word-level instance, Proof/FrmI.lean at
  the extended reals); for the reference, a host program, by its run with the results dropped.
  The idealization rewrote no operation, so there is nothing to preserve.
  Equivalence over the extended reals: the kernel's two result arrays are the new hidden state and the new
  cell state of the LSTM cell as one function of the launch contents (Proof/KernelRun.lean: what the
  sixteen written-back blocks add up to), the reference's two results are the same function of its own
  arguments (Proof/RefArr.lean), and the arguments agree. Every sum and product stands in the same order and
  grouping on both sides, so no law of the extended reals is used and the precondition is never opened.
-/
import proofs.«153274_j14920716386505_1_alg».proof.Defs
import proofs.«153274_j14920716386505_1_alg».proof.Proof.FrmK
import proofs.«153274_j14920716386505_1_alg».proof.Proof.KernelRun
import proofs.«153274_j14920716386505_1_alg».proof.Proof.RefArr
import proofs.«153274_j14920716386505_1_alg».proof.Proof.Gen.Kernel
import proofs.«153274_j14920716386505_1_alg».proof.Proof.Gen.KernelIdeal
import proofs.«153274_j14920716386505_1_alg».proof.Proof.Gen.ReferenceIdeal
import proofs.«153274_j14920716386505_1_alg».proof.Proof.Gen.ReferenceIdeal.Run
import proofs.«153274_j14920716386505_1_alg».proof.Proof.Gen.ReferenceIdeal.Read
import proofs.«153274_j14920716386505_1_alg».proof.Proof.Gen.Pre_finite_inputs

set_option maxRecDepth 16384

noncomputable section

open Idealize.ShloMosaic Idealize.ShloMosaic.TcCoe Idealize.SL.Sem

namespace Cert.Proof.LstmClaims

/-- The word-level kernel program's frame. -/
theorem frame_k : Cert.frame_Kernel := fun m ρ _ => Cert.Kernel.Frm.frame (F := Bits) m ρ

/-- The idealized kernel program's frame. -/
theorem frame_ki : Cert.frame_KernelIdeal := fun m ρ _ => Cert.KernelIdeal.Frm.frame (F := Ideal) m ρ

/-- The idealized reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- Both programs end with the new hidden state and the new cell state of the same launch contents. -/
theorem algebraic : Cert.algebraic_KernelIdeal_ReferenceIdeal := by
  intro m ρ m' ρ' _ hagree
  refine ⟨fun c => Cert.KernelIdeal.KVal.hiddenOf m c, fun c => Cert.KernelIdeal.KVal.cellOf m c,
    Cert.KernelIdeal.KVal.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17⟩ := hagree c
    rw [Cert.ReferenceIdeal.Read.val_main_v48_eq, Cert.ReferenceIdeal.RefArr.hidden_arr,
      h0, h1, h2, h3, h4, h5, h6, h7, h8, h9, h10, h11, h12, h13, h14, h15, h16, h17]
  · obtain ⟨h0, h1, h2, h3, h4, h5, h6, h7, h8, h9, h10, h11, h12, h13, h14, h15, h16, h17⟩ := hagree c
    rw [Cert.ReferenceIdeal.Read.val_main_v36_eq, Cert.ReferenceIdeal.RefArr.cell_arr,
      h0, h1, h2, h3, h4, h5, h6, h7, h8, h9, h10, h11, h12, h14, h15, h16, h17]

end Cert.Proof.LstmClaims

end
-- ==== Proof.lean ====
/-
  The certificate of a fused peephole LSTM cell against its plain reference.

  The kernel tiles the 8192 batch rows into sixteen blocks of 512; at each grid point it multiplies the
  block of inputs and the block of hidden states by the two resident fused weight matrices (the four
  gates' matrices joined along their columns, narrowed to bf16 for the matrix unit), adds the joined bias,
  cuts the 4096 fused columns into the four gates, and applies the gated recurrence with peephole
  connections, writing back the block of new hidden states and the block of new cell states. The reference
  does the same on whole arrays with the logistic function spelt out as 1 / (1 + e^(−t)). Over the
  extended reals the narrowing is the identity, a matrix product into a zero accumulator is the plain sum
  over the shared axis, and the logistic function is that quotient, so both programs compute one function,
  row by row (Proof/LstmSpec.lean); Proof/Claims.lean has the five claims.
-/
import proofs.«153274_j14920716386505_1_alg».proof.Defs
import proofs.«153274_j14920716386505_1_alg».proof.Proof.Claims
import proofs.«153274_j14920716386505_1_alg».proof.Proof.Gen.Kernel
import proofs.«153274_j14920716386505_1_alg».proof.Proof.Gen.KernelIdeal
import proofs.«153274_j14920716386505_1_alg».proof.Proof.Gen.ReferenceIdeal
import proofs.«153274_j14920716386505_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    LstmClaims.frame_k, LstmClaims.frame_ki, LstmClaims.frame_ri, LstmClaims.preserves, LstmClaims.algebraic⟩

end Cert.Proof

end
